-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S524288 : Shape := ⟨1, ![524288]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S524288 : S_.BroadcastsInDim S524288 (![] : Fin 0 → Fin S524288.rank)
  reducesTo_S524288_S_d0 : S524288.ReducesTo [0] S_

variable [Facts]

def fn_part1 {F : FTy → Type} [FloatOps F] (main_arg3 : IVec S524288 32) (main_v15 : IVec S_ 1) (main_c_5 : IVec S_ 32) : IVec S_ 1 :=
  let main_v16 : IVec S524288 32 := broadcastInDim S524288 ![] bcast_S_S524288 main_c_5
  let main_v17 : IVec S524288 1 := cmpi .sge main_arg3 main_v16
  let main_c_6 : IVec S_ 32 := constantI S_ 32 16384#32
  let main_v18 : IVec S524288 32 := broadcastInDim S524288 ![] bcast_S_S524288 main_c_6
  let main_v19 : IVec S524288 1 := cmpi .slt main_arg3 main_v18
  let main_v20 : IVec S524288 1 := andi main_v17 main_v19
  let main_c_7 : IVec S_ 1 := constantI S_ 1 1#1
  let main_v21 : IVec S_ 1 := (fun x v => Host.reduce IntOp.andi x v reducesTo_S524288_S_d0 h_S_) main_v20 main_c_7
  let main_v22 : IVec S_ 1 := andi main_v15 main_v21
  main_v22

def fn {F : FTy → Type} [FloatOps F] (main_arg0 : FVec F S16384x16384 .f32) (main_arg1 : FVec F S524288 .f32) (main_arg2 : IVec S524288 32) (main_arg3 : IVec S524288 32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S524288 .f32 := Host.absf main_arg1
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  let main_c_2 : IVec S_ 32 := constantI S_ 32 0#32
  let main_v9 : IVec S524288 32 := broadcastInDim S524288 ![] bcast_S_S524288 main_c_2
  let main_v10 : IVec S524288 1 := cmpi .sge main_arg2 main_v9
  let main_c_3 : IVec S_ 32 := constantI S_ 32 16384#32
  let main_v11 : IVec S524288 32 := broadcastInDim S524288 ![] bcast_S_S524288 main_c_3
  let main_v12 : IVec S524288 1 := cmpi .slt main_arg2 main_v11
  let main_v13 : IVec S524288 1 := andi main_v10 main_v12
  let main_c_4 : IVec S_ 1 := constantI S_ 1 1#1
  let main_v14 : IVec S_ 1 := (fun x v => Host.reduce IntOp.andi x v reducesTo_S524288_S_d0 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S16384x16384 : Shape := ⟨2, ![16384, 16384]⟩
abbrev S524288 : Shape := ⟨1, ![524288]⟩
abbrev S_ : Shape := ⟨0, ![]⟩
abbrev S524288x1 : Shape := ⟨2, ![524288, 1]⟩
abbrev S524288x2 : Shape := ⟨2, ![524288, 2]⟩
abbrev S16384x1 : Shape := ⟨2, ![16384, 1]⟩
abbrev S512x2048 : Shape := ⟨2, ![512, 2048]⟩
abbrev S512x1 : Shape := ⟨2, ![512, 1]⟩
abbrev S512 : Shape := ⟨1, ![512]⟩
abbrev S16384 : Shape := ⟨1, ![16384]⟩
abbrev S1 : Shape := ⟨1, ![1]⟩

abbrev nBuf : Space → Nat
  | .hbm => 39
  | .vmem => 7
  | .smem => 0
  | _ => 0

abbrev bufTy : (tb : Table) → Fin (tcTables nBuf tb) → BufTy
  | .hbm, ⟨0, _⟩ => ⟨S16384x16384, .f32⟩
  | .hbm, ⟨1, _⟩ => ⟨S524288, .f32⟩
  | .hbm, ⟨2, _⟩ => ⟨S524288, .i32⟩
  | .hbm, ⟨3, _⟩ => ⟨S524288, .i32⟩
  | .hbm, ⟨4, _⟩ => ⟨S_, .f32⟩
  | .hbm, ⟨5, _⟩ => ⟨S16384x16384, .f32⟩
  | .hbm, ⟨6, _⟩ => ⟨S_, .i32⟩
  | .hbm, ⟨7, _⟩ => ⟨S524288, .i32⟩
  | .hbm, ⟨8, _⟩ => ⟨S524288, .i1⟩
  | .hbm, ⟨9, _⟩ => ⟨S_, .i32⟩
  | .hbm, ⟨10, _⟩ => ⟨S524288, .i32⟩
  | .hbm, ⟨11, _⟩ => ⟨S524288, .i32⟩
  | .hbm, ⟨12, _⟩ => ⟨S524288, .i32⟩
  | .hbm, ⟨13, _⟩ => ⟨S_, .i32⟩
  | .hbm, ⟨14, _⟩ => ⟨S524288, .i32⟩
  | .hbm, ⟨15, _⟩ => ⟨S524288, .i1⟩
  | .hbm, ⟨16, _⟩ => ⟨S_, .i32⟩
  | .hbm, ⟨17, _⟩ => ⟨S524288, .i32⟩
  | .hbm, ⟨18, _⟩ => ⟨S524288, .i32⟩
  | .hbm, ⟨19, _⟩ => ⟨S524288, .i32⟩
  | .hbm, ⟨20, _⟩ => ⟨S524288x1, .i32⟩
  | .hbm, ⟨21, _⟩ => ⟨S524288x1, .i32⟩
  | .hbm, ⟨22, _⟩ => ⟨S524288x2, .i32⟩
  | .hbm, ⟨23, _⟩ => ⟨S16384x16384, .f32⟩
  | .hbm, ⟨24, _⟩ => ⟨S16384x1, .f32⟩
  | .hbm, ⟨25, _⟩ => ⟨S16384, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1, .f32⟩
  | .hbm, ⟨31, _⟩ => ⟨S16384, .f32⟩
  | .hbm, ⟨32, _⟩ => ⟨S16384, .f32⟩
  | .hbm, ⟨33, _⟩ => ⟨S16384, .f32⟩
  | .hbm, ⟨34, _⟩ => ⟨S_, .f32⟩
  | .hbm, ⟨35, _⟩ => ⟨S_, .f32⟩
  | .hbm, ⟨36, _⟩ => ⟨S1, .f32⟩
  | .hbm, ⟨37, _⟩ => ⟨S16384, .f32⟩
  | .hbm, ⟨38, _⟩ => ⟨S16384, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S16384x16384 : S_.BroadcastsInDim S16384x16384 (![] : Fin 0 → Fin S16384x16384.rank)
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  shapeCasts_S16384x1_S16384 : S16384x1.ShapeCasts S16384
  reducesTo_S16384_S_d0 : S16384.ReducesTo [0] S_
  h_S_ : 0 < S_.numel
  bcast_S_S1 : S_.BroadcastsInDim S1 (![] : Fin 0 → Fin S1.rank)
  bcast_S1_S16384_0 : S1.BroadcastsInDim S16384 (![0] : Fin 1 → Fin S16384.rank)
  scatter_S16384x16384_S524288x2_S524288_n_01_01_1_wf : ScatterDims.WF S16384x16384 S524288x2 S524288 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x16384.size a
  hwx0_0 : ∀ i : grid0.Coords, EltTy.bits .f32 = 32 ∨ (Rect.block (s := S16384x16384) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x16384.size a
  hwx0_1 : ∀ i : grid0.Coords, EltTy.bits .f32 = 32 ∨ (Rect.block (s := S16384x16384) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .f32 = 32 ∨ (Rect.block (s := S16384x1) S512x1.size (cc0_transform_2 i) (hinb0_2 i)).WholeWords (EltTy.packing .f32)

variable [Facts₀]

def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x16384 : Shape := ⟨2, ![16384, 16384]⟩
abbrev S524288 : Shape := ⟨1, ![524288]⟩
abbrev S_ : Shape := ⟨0, ![]⟩
abbrev S524288x1 : Shape := ⟨2, ![524288, 1]⟩
abbrev S524288x2 : Shape := ⟨2, ![524288, 2]⟩
abbrev S16384 : Shape := ⟨1, ![16384]⟩
abbrev S1 : Shape := ⟨1, ![1]⟩

abbrev nBuf : Space → Nat
  | .hbm => 40
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S524288, .f32⟩
  | .hbm, ⟨2, _⟩ => ⟨S524288, .i32⟩
  | .hbm, ⟨3, _⟩ => ⟨S524288, .i32⟩
  | .hbm, ⟨4, _⟩ => ⟨S_, .i32⟩
  | .hbm, ⟨5, _⟩ => ⟨S524288, .i32⟩
  | .hbm, ⟨6, _⟩ => ⟨S524288, .i1⟩
  | .hbm, ⟨7, _⟩ => ⟨S_, .i32⟩
  | .hbm, ⟨8, _⟩ => ⟨S524288, .i32⟩
  | .hbm, ⟨9, _⟩ => ⟨S524288, .i32⟩
  | .hbm, ⟨10, _⟩ => ⟨S524288, .i32⟩
  | .hbm, ⟨11, _⟩ => ⟨S_, .i32⟩
  | .hbm, ⟨12, _⟩ => ⟨S524288, .i32⟩
  | .hbm, ⟨13, _⟩ => ⟨S524288, .i1⟩
  | .hbm, ⟨14, _⟩ => ⟨S_, .i32⟩
  | .hbm, ⟨15, _⟩ => ⟨S524288, .i32⟩
  | .hbm, ⟨16, _⟩ => ⟨S524288, .i32⟩
  | .hbm, ⟨17, _⟩ => ⟨S524288, .i32⟩
  | .hbm, ⟨18, _⟩ => ⟨S524288x1, .i32⟩
  | .hbm, ⟨19, _⟩ => ⟨S524288x1, .i32⟩
  | .hbm, ⟨20, _⟩ => ⟨S524288x2, .i32⟩
  | .hbm, ⟨21, _⟩ => ⟨S524288, .f32⟩
  | .hbm, ⟨22, _⟩ => ⟨S524288, .f32⟩
  | .hbm, ⟨23, _⟩ => ⟨S_, .f32⟩
  | .hbm, ⟨24, _⟩ => ⟨S16384, .f32⟩
  | .hbm, ⟨25, _⟩ => ⟨S524288x1, .i32⟩
  | .hbm, ⟨26, _⟩ => ⟨S16384, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1, .f32⟩
  | .hbm, ⟨32, _⟩ => ⟨S16384, .f32⟩
  | .hbm, ⟨33, _⟩ => ⟨S16384, .f32⟩
  | .hbm, ⟨34, _⟩ => ⟨S16384, .f32⟩
  | .hbm, ⟨35, _⟩ => ⟨S_, .f32⟩
  | .hbm, ⟨36, _⟩ => ⟨S_, .f32⟩
  | .hbm, ⟨37, _⟩ => ⟨S1, .f32⟩
  | .hbm, ⟨38, _⟩ => ⟨S16384, .f32⟩
  | .hbm, ⟨39, _⟩ => ⟨S16384, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  bcast_S_S16384 : S_.BroadcastsInDim S16384 (![] : Fin 0 → Fin S16384.rank)
  reducesTo_S16384_S_d0 : S16384.ReducesTo [0] S_
  h_S_ : 0 < S_.numel
  bcast_S_S1 : S_.BroadcastsInDim S1 (![] : Fin 0 → Fin S1.rank)
  bcast_S1_S16384_0 : S1.BroadcastsInDim S16384 (![0] : Fin 1 → Fin S16384.rank)
  gather_S16384x16384_S524288x2_S524288_n_01_n_n_01_1_11_wf : GatherDims.WF S16384x16384 S524288x2 S524288 [] [0, 1] [] [0, 1] [] 1 ![1, 1]
  scatter_S16384_S524288x1_S524288_n_0_0_1_wf : ScatterDims.WF S16384 S524288x1 S524288 [] [0] [0] 1

variable [Facts₀]

def gather_S16384x16384_S524288x2_S524288_n_01_n_n_01_1_11 : GatherDims S16384x16384 S524288x2 S524288 where
  offsetDims := []
  collapsedSliceDims := [0, 1]
  operandBatchingDims := []
  startIndicesBatchingDims := []
  startIndexMap := [0, 1]
  indexVectorDim := 1
  sliceSizes := ![1, 1]
  wf := gather_S16384x16384_S524288x2_S524288_n_01_n_n_01_1_11_wf
def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf

class Facts : Prop extends Facts₀ where

variable [Facts]
-- ==== Proof.SumLaw.lean ====
/-
  Sums over edges against sums over cells: the algebra that joins a dense masked row sum to a sparse segment sum.

  A row of a dense matrix is multiplied entry by entry with a row of edge counts — the entry at column `c` being the
  sum of the weights of the edges that sit in that cell — and summed. Distributing the product over each cell's sum
  and exchanging the two sums, every edge of the row is met exactly once, at its own column: the result is the sum over
  the row's edges of weight times the matrix entry at the edge's column. Over the reals this is distributivity and a
  change of the order of summation; over the extended reals it holds when every entry is a real number.
-/
import Mathlib.Data.EReal.Operations
import Mathlib.Algebra.BigOperators.Group.Finset.Basic
import Mathlib.Algebra.BigOperators.Ring.Finset
import Mathlib.Data.Fintype.BigOperators

namespace Cert.SumLaw

open scoped BigOperators

/-- The coercion of the reals into the extended reals goes through a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the row `d` times the cell sums of the weights `a`, summed over the columns, is the sum over the
    row's edges (those with `P`) of weight times the row's entry at the edge's column. -/
theorem real_law {J C : Type*} [Fintype J] [Fintype C] [DecidableEq C] (P : J → Prop) [DecidablePred P]
    (col : J → C) (d : C → ℝ) (a : J → ℝ) :
    ∑ c : C, d c * ∑ e ∈ Finset.univ.filter (fun e => P e ∧ col e = c), a e
      = ∑ e ∈ Finset.univ.filter P, a e * d (col e) := by
  calc ∑ c : C, d c * ∑ e ∈ Finset.univ.filter (fun e => P e ∧ col e = c), a e
      = ∑ c : C, ∑ e ∈ Finset.univ.filter P, if col e = c then d c * a e else 0 := by
        refine Finset.sum_congr rfl fun c _ => ?_
        rw [Finset.mul_sum, ← Finset.filter_filter, Finset.sum_filter]
    _ = ∑ e ∈ Finset.univ.filter P, ∑ c : C, if col e = c then d c * a e else 0 := Finset.sum_comm
    _ = ∑ e ∈ Finset.univ.filter P, a e * d (col e) := by
        refine Finset.sum_congr rfl fun e _ => ?_
        rw [Finset.sum_ite_eq Finset.univ (col e) (fun c => d c * a e), if_pos (Finset.mem_univ _), mul_comm]

/-- Over the extended reals, at real entries, and with the zero the two accumulations start from. -/
theorem ereal_law {J C : Type*} [Fintype J] [Fintype C] [DecidableEq C] (P : J → Prop) [DecidablePred P]
    (col : J → C) (d : C → ℝ) (a : J → ℝ) (z : EReal) (hz : z = 0) :
    z + ∑ c : C, (d c : EReal) * (z + ∑ e ∈ Finset.univ.filter (fun e => P e ∧ col e = c), (a e : EReal))
      = z + ∑ e ∈ Finset.univ.filter P, (a e : EReal) * (d (col e) : EReal) := by
  subst hz
  simp only [zero_add]
  simp only [← coe_sum, ← EReal.coe_mul]
  rw [real_law]

end Cert.SumLaw
-- ==== Proof.Spec.lean ====
/-
  What both programs compute, as functions of the four argument arrays: a matrix `data` of 16384 rows and columns, and
  524288 edges, edge `e` carrying a weight `adj e`, a row word `rows e` and a column word `cols e`.

    • `segSum` (the sparse arrangement): row `r`'s value is the sum, over the edges whose row is `r`, of the edge's
      weight times the matrix entry at the edge's row and column.
    • `cellSum` (the dense edge-count matrix): cell `(r, c)` holds the sum of the weights of the edges at that cell;
      `rowSum` multiplies a row of `data` with the same row of such a matrix entry by entry and sums over the columns.

  `rowSum_cellSum`: at real entries, the row sum against the cell sums IS the segment sum (Proof/SumLaw.lean).
  An index word is placed among the 16384 positions by `pos` (read signed, negatives at 0, capped at the last
  position); for a word in range, `pos` is the word itself (`pos_eq_iff`).
-/
import Idealize.ShloMosaic.PureOps.Ideal
import Idealize.ShloMosaic.PureOps.Ideal.Laws
import Idealize.ShloMosaic.Lib.ValueIdx
import proofs.«414766_j26431228739590_1_alg».proof.Proof.SumLaw

noncomputable section

namespace Cert.Spec

open Idealize.ShloMosaic Idealize.ShloMosaic.ValueIdx
open scoped BigOperators

abbrev SD : Shape := ⟨2, ![16384, 16384]⟩
abbrev SE : Shape := ⟨1, ![524288]⟩

/-- An index word as one of the 16384 positions: read signed, a negative word at 0, a large one at the last. -/
def pos (w : BitVec 32) : Fin 16384 := ⟨min w.toInt.toNat 16383, by omega⟩

/-- The zero both accumulations start from. -/
abbrev zero : EReal := Ideal.ofBits .f32 0x00000000#32

theorem zero_eq : zero = 0 := Ideal.ofBits_zero_f32

/-- Row `r`'s segment sum: over the edges of row `r`, weight times the matrix entry at the edge's cell. -/
def segSum (data : SD.Idx → EReal) (adj : SE.Idx → EReal) (rows cols : IVec SE 32) (r : Fin 16384) : EReal :=
  zero + ∑ e ∈ Finset.univ.filter (fun e : Fin 524288 => pos (rows (ix1 e)) = r),
    adj (ix1 e) * data (ix2 (pos (rows (ix1 e))) (pos (cols (ix1 e))))

/-- Cell `(r, c)` of the dense edge-count matrix: the weights of the edges at that cell, summed. -/
def cellSum (adj : SE.Idx → EReal) (rows cols : IVec SE 32) (r c : Fin 16384) : EReal :=
  zero + ∑ e ∈ Finset.univ.filter (fun e : Fin 524288 => pos (rows (ix1 e)) = r ∧ pos (cols (ix1 e)) = c), adj (ix1 e)

/-- Row `r` of `data` against row `r` of `mask`, entry by entry, summed over the columns. -/
def rowSum (data mask : SD.Idx → EReal) (r : Fin 16384) : EReal :=
  zero + ∑ c : Fin 16384, data (ix2 r c) * mask (ix2 r c)

/-- Every entry is a real number. -/
def AllReal {S : Shape} (x : S.Idx → EReal) : Prop := ∀ i, ∃ v : ℝ, x i = (v : EReal)

/-- Every index word, read signed, is one of the 16384 positions. -/
def InRange (w : IVec SE 32) : Prop := ∀ e : Fin 524288, 0 ≤ (w (ix1 e)).toInt ∧ (w (ix1 e)).toInt < 16384

/-- For a word in range, its position is the word. -/
theorem pos_eq_iff {w : BitVec 32} (h : 0 ≤ w.toInt ∧ w.toInt < 16384) (r : Fin 16384) :
    pos w = r ↔ w.toInt = (r.val : ℤ) := by
  have hr := r.isLt
  constructor
  · intro e
    have := congrArg Fin.val e
    simp only [pos] at this
    omega
  · intro e
    apply Fin.ext
    simp only [pos]
    omega

/-- The value of a word in range, as a natural number, is its position. -/
theorem pos_val {w : BitVec 32} (h : 0 ≤ w.toInt ∧ w.toInt < 16384) : (pos w).val = w.toInt.toNat := by
  simp only [pos]; omega

/-- At real entries, the dense row sum against the cell sums is the segment sum. -/
theorem rowSum_cellSum (data : SD.Idx → EReal) (adj : SE.Idx → EReal) (rows cols : IVec SE 32)
    (hd : AllReal data) (ha : AllReal adj) (mask : SD.Idx → EReal)
    (hm : ∀ r c : Fin 16384, mask (ix2 r c) = cellSum adj rows cols r c) (r : Fin 16384) :
    rowSum data mask r = segSum data adj rows cols r := by
  choose d hd using hd
  choose a ha using ha
  unfold rowSum segSum
  have h1 : ∀ c : Fin 16384, data (ix2 r c) * mask (ix2 r c)
      = ((d (ix2 r c) : ℝ) : EReal) * (zero + ∑ e ∈ Finset.univ.filter
          (fun e : Fin 524288 => pos (rows (ix1 e)) = r ∧ pos (cols (ix1 e)) = c), ((a (ix1 e) : ℝ) : EReal)) := by
    intro c
    rw [hm r c, hd]
    unfold cellSum
    simp only [ha]
  have h2 : ∀ e ∈ Finset.univ.filter (fun e : Fin 524288 => pos (rows (ix1 e)) = r),
      adj (ix1 e) * data (ix2 (pos (rows (ix1 e))) (pos (cols (ix1 e))))
        = ((a (ix1 e) : ℝ) : EReal) * ((d (ix2 r (pos (cols (ix1 e)))) : ℝ) : EReal) := by
    intro e he
    rw [(Finset.mem_filter.mp he).2, ha, hd]
  rw [Finset.sum_congr rfl (fun c _ => h1 c), Finset.sum_congr rfl h2]
  exact Cert.SumLaw.ereal_law (fun e : Fin 524288 => pos (rows (ix1 e)) = r) (fun e => pos (cols (ix1 e)))
    (fun c => d (ix2 r c)) (fun e => a (ix1 e)) zero zero_eq

end Cert.Spec

end
-- ==== Proof.Tail.lean ====
/-
  The softmax both programs end with, as ONE function of the vector it is applied to: subtract the largest entry,
  exponentiate, divide by the sum of the exponentials. The certificate never opens it: the two programs apply it to
  equal vectors.
-/
import Idealize.ShloMosaic.PureOps
import Idealize.ShloMosaic.Lib.StableHlo

noncomputable section

namespace Cert.Tail

open Idealize.ShloMosaic

abbrev S0 : Shape := ⟨0, ![]⟩
abbrev S1 : Shape := ⟨1, ![1]⟩
abbrev SR : Shape := ⟨1, ![16384]⟩

variable {F : FTy → Type} [FloatOps F]

/-- The largest entry, as the programs compute it (a max-reduction from −∞, joined with −∞ once more). -/
def top (hr : SR.ReducesTo [0] S0) (h0 : 0 < S0.numel) (x : FVec F SR .f32) : FVec F S0 .f32 :=
  maximumf (constant S0 .f32 0xFF800000#32) (Host.reduce FloatOps.maximumf x (constant S0 .f32 0xFF800000#32) hr h0)

/-- The exponentials of the entries less the largest. -/
def expo (hr : SR.ReducesTo [0] S0) (h0 : 0 < S0.numel) (hb1 : S0.BroadcastsInDim S1 (![] : Fin 0 → Fin S1.rank))
    (hb2 : S1.BroadcastsInDim SR (![0] : Fin 1 → Fin SR.rank)) (x : FVec F SR .f32) : FVec F SR .f32 :=
  Host.exp (subf x (broadcastInDim SR ![0] hb2 (broadcastInDim S1 ![] hb1 (top hr h0 x))))

/-- The softmax: each exponential over their sum. -/
def softmax (hr : SR.ReducesTo [0] S0) (h0 : 0 < S0.numel) (hb1 : S0.BroadcastsInDim S1 (![] : Fin 0 → Fin S1.rank))
    (hb2 : S1.BroadcastsInDim SR (![0] : Fin 1 → Fin SR.rank)) (x : FVec F SR .f32) : FVec F SR .f32 :=
  Host.divf (expo hr h0 hb1 hb2 x)
    (broadcastInDim SR ![0] hb2 (broadcastInDim S1 ![] hb1
      (Host.reduceAdd (expo hr h0 hb1 hb2 x) (constant S0 .f32 0x00000000#32) hr h0)))

end Cert.Tail

end
-- ==== Proof.PreDecode.lean ====
/-
  The precondition, read: it is the conjunction of four all-quantified tests — every matrix entry and every edge weight
  has absolute value below +∞, and every row word and every column word, read signed, is at least 0 and below 16384.
  So under it the float inputs are real numbers and the index words are positions of the matrix.
-/
import proofs.«414766_j26431228739590_1_alg».proof.Pre_finite_inputs
import proofs.«414766_j26431228739590_1_alg».proof.Proof.Spec
import Idealize.ShloMosaic.Lib.ReduceAll
import Idealize.ShloMosaic.Lib.ValueIdx
import Idealize.ShloMosaic.Lib.StableHlo.Predicate

noncomputable section

namespace Cert.PreDecode

open Idealize.ShloMosaic Idealize.ShloMosaic.ValueIdx Cert.Pre_finite_inputs

/-- The bit pattern of +∞ at f32 denotes the top of the extended reals. -/
private theorem inf_eq_top : Ideal.ofBits .f32 0x7F800000#32 = (⊤ : EReal) := by
  simp [Ideal.ofBits, Ideal.ieee]

/-- An extended real whose absolute value max x (-x) compares below +∞ is a real number: at ⊥ and at ⊤ the absolute
    value is ⊤, which is not below ⊤. -/
private theorem real_of_abs_lt (x : Ideal .f32)
    (hx : FloatOps.cmpf .olt (FloatOps.hostAbsf x) (Ideal.ofBits .f32 0x7F800000#32) = 1#1) : ∃ v : ℝ, x = (v : EReal) := by
  rw [Ideal.cmpf_def, Ideal.hostAbsf_def, Ideal.absf_def, inf_eq_top] at hx
  induction x using EReal.rec with
  | bot => exact absurd hx (by simp [Ideal.cmp])
  | top => exact absurd hx (by simp [Ideal.cmp])
  | coe r => exact ⟨r, rfl⟩

/-- A 32-bit word that compares, signed, at least 0 and below 16384 has its signed value in [0, 16384). -/
private theorem range_of_cmp (w : BitVec 32)
    (hw : IntOp.andi (IntOp.cmpi .sge w 0#32) (IntOp.cmpi .slt w 16384#32) = 1#1) : 0 ≤ w.toInt ∧ w.toInt < 16384 := by
  obtain ⟨hge, hlt⟩ := IntOp.andi_eq_one.1 hw
  have h0 : (0#32 : BitVec 32).toInt = 0 := by decide
  have h1 : (16384#32 : BitVec 32).toInt = 16384 := by decide
  have a := IntOp.cmpi_sge.1 hge
  have b := IntOp.cmpi_slt.1 hlt
  rw [h0] at a
  rw [h1] at b
  exact ⟨a, b⟩

/-- Under the precondition the matrix and the weights are real-valued and the index words are in range. -/
theorem decode [Cert.Pre_finite_inputs.Facts] (x0 : FVec Ideal S16384x16384 .f32) (x1 : FVec Ideal S524288 .f32)
    (x2 x3 : IVec S524288 32)
    (h : Cert.Pre_finite_inputs.fn (F := Ideal) x0 x1 x2 x3 = fun _ => 1#1) :
    Cert.Spec.AllReal x0 ∧ Cert.Spec.AllReal x1 ∧ Cert.Spec.InRange x2 ∧ Cert.Spec.InRange x3 := by
  haveI : Subsingleton S_.Idx := ⟨fun a b => funext fun d => d.elim0⟩
  have h0 := congrFun h ValueIdx.ix0
  dsimp only [Cert.Pre_finite_inputs.fn, Cert.Pre_finite_inputs.fn_part1] at h0
  -- the result is the and of the four all-reductions: each is 1
  obtain ⟨h123, h4⟩ := IntOp.andi_eq_one.1 h0
  obtain ⟨h12, h3⟩ := IntOp.andi_eq_one.1 h123
  obtain ⟨h1, h2⟩ := IntOp.andi_eq_one.1 h12
  -- so each tested array is 1 at every index
  have a1 := Host.reduce_andi_all _ _ _ _ _ h1
  have a2 := Host.reduce_andi_all _ _ _ _ _ h2
  have a3 := Host.reduce_andi_all _ _ _ _ _ h3
  have a4 := Host.reduce_andi_all _ _ _ _ _ h4
  refine ⟨fun i => real_of_abs_lt (x0 i) (a1 i), fun i => real_of_abs_lt (x1 i) (a2 i),
    fun e => range_of_cmp (x2 (ix1 e)) (a3 (ix1 e)), fun e => range_of_cmp (x3 (ix1 e)) (a4 (ix1 e))⟩

end Cert.PreDecode

end
-- ==== Proof.KRun.lean ====
/-
  The kernel program's run, read: the region's result array, one column of 16384 rows, is flattened to a vector, which
  is the program's second result, and the softmax of that vector is its first; the arguments end unchanged.
-/
import proofs.«414766_j26431228739590_1_alg».proof.Proof.Gen.KernelIdeal.Frame
import proofs.«414766_j26431228739590_1_alg».proof.Proof.Tail
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable {F : FTy → Type} [FloatOps F]
variable (m : (ℓ : Loc nD τ sig) → Buf (Elt F) ℓ) (ρ : Dev nD → PrngReg)

/-- The region's result column after the run, flattened to a vector of 16384 entries. -/
def outVec (c : Dev nD) : FVec F S16384 .f32 :=
  shapeCast S16384 ((dats m 0 c).arrAt 2 cfg0.N : FVec F S16384x1 .f32) shapeCasts_S16384x1_S16384

/-- The flattened column is what the host lines after the region leave in the second result. -/
theorem tail16 (c : Dev nD) :
    Pipeline.afterTail₀ cfgs (dats m) 0 (V0 m) [hostOps1] c main_v16 = outVec m c := by
  unfold Pipeline.afterTail₀
  show StableHlo.after hostOps1 _ (Proc.devRef .tc main_v16) = _
  after_results
  have e := Pipeline.withArrays_arr (cfgs 0).spec launch0.win.arr_inj c (V0 m c)
    (fun w => (dats m 0 c).arrAt w (cfgs 0).N) 2
  have e' : Pipeline.withArrays (cfgs 0).spec c (V0 m c) (fun w => (dats m 0 c).arrAt w (cfgs 0).N)
      (Proc.devRef .tc main_v15) = (dats m 0 c).arrAt 2 (cfgs 0).N := e
  unfold outVec
  rw [e']
  rfl

/-- The softmax of the flattened column is what they leave in the first result. -/
theorem tail26 (c : Dev nD) :
    Pipeline.afterTail₀ cfgs (dats m) 0 (V0 m) [hostOps1] c main_v26
      = Cert.Tail.softmax reducesTo_S16384_S_d0 h_S_ bcast_S_S1 bcast_S1_S16384_0 (outVec m c) := by
  unfold Pipeline.afterTail₀
  show StableHlo.after hostOps1 _ (Proc.devRef .tc main_v26) = _
  after_results
  have e := Pipeline.withArrays_arr (cfgs 0).spec launch0.win.arr_inj c (V0 m c)
    (fun w => (dats m 0 c).arrAt w (cfgs 0).N) 2
  have e' : Pipeline.withArrays (cfgs 0).spec c (V0 m c) (fun w => (dats m 0 c).arrAt w (cfgs 0).N)
      (Proc.devRef .tc main_v15) = (dats m 0 c).arrAt 2 (cfgs 0).N := e
  unfold outVec Cert.Tail.softmax Cert.Tail.expo Cert.Tail.top
  rw [e']
  rfl

/-- The run: both results as functions of the region's result column, the arguments unchanged. -/
theorem run : θ_run defs (onTc (τ := τ) (main (F := F))) ⟨m, fun _ => 0, ρ⟩ (fun r => ∀ c : Dev nD,
      r.2.mem ((c.tc : Thread nD τ).loc main_v26)
        = Cert.Tail.softmax reducesTo_S16384_S_d0 h_S_ bcast_S_S1 bcast_S1_S16384_0 (outVec m c)
      ∧ r.2.mem ((c.tc : Thread nD τ).loc main_v16) = outVec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v26 (Pipeline.mem_restRefs_of main_v26 (by decide) (by decide))).trans (tail26 m c),
      ((h c).2 main_v16 (Pipeline.mem_restRefs_of main_v16 (by decide) (by decide))).trans (tail16 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.KBlocks.lean ====
/-
  Where a grid point's input blocks sit in their arrays. The 256 grid points run over 32 row blocks of 512 rows, and
  for each over 8 column blocks of 2048 columns, the column block moving fastest: point `n` is row block `n / 8` and
  column block `n % 8`. Entry `(r, q)` of either input block at point `n` is the array's entry at row
  `512 · (n / 8) + r` and column `2048 · (n % 8) + q`.
-/
import proofs.«414766_j26431228739590_1_alg».proof.Proof.Gen.KernelIdeal.Frame
import proofs.«414766_j26431228739590_1_alg».proof.Proof.Spec
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable {F : FTy → Type} [FloatOps F]
variable (m : (ℓ : Loc nD τ sig) → Buf (Elt F) ℓ)

/-- Row `r` of the row block of grid point `n`, as a row of the whole matrix. -/
def rowAt (n : ℕ) (r : Fin 512) : Fin 16384 := ⟨(512 * (n / 8) + r.val) % 16384, Nat.mod_lt _ (by decide)⟩

/-- Column `q` of column block `k`, as a column of the whole matrix. -/
def colAt (k : ℕ) (q : Fin 2048) : Fin 16384 := ⟨(2048 * k + q.val) % 16384, Nat.mod_lt _ (by decide)⟩

/-- Below 256 grid points the row `512 · (n / 8) + r` is below 16384: nothing is reduced. -/
theorem rowAt_val (n : ℕ) (hn : n < 256) (r : Fin 512) : (rowAt n r).val = 512 * (n / 8) + r.val := by
  have hr := r.isLt
  show (512 * (n / 8) + r.val) % 16384 = _
  exact Nat.mod_eq_of_lt (by omega)

/-- Below 8 column blocks the column `2048 · k + q` is below 16384: nothing is reduced. -/
theorem colAt_val (k : ℕ) (hk : k < 8) (q : Fin 2048) : (colAt k q).val = 2048 * k + q.val := by
  have hq := q.isLt
  show (2048 * k + q.val) % 16384 = _
  exact Nat.mod_eq_of_lt (by omega)

/-- The first window's index map over the grid: point `t` reads row block `t / 8` and column block `t % 8`. -/
theorem index0_eq : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)

/-- The second window's index map over the grid: the same row block and column block. -/
theorem index1_eq : ∀ t : Fin cfg0.N, win0_1.index t 0 = t.val / 8 ∧ win0_1.index t 1 = t.val % 8 :=
  (by decide +kernel : ∀ t : Fin grid0.N, win0_1.index t 0 = t.val / 8 ∧ win0_1.index t 1 = t.val % 8)

/-- The first input block at a grid point, entry by entry, in the matrix. -/
theorem iblk0_apply (c : Dev nD) (t : Fin cfg0.N) (r : Fin 512) (q : Fin 2048) :
    (iblk m c 0 t : Vec F S512x2048 .f32) (ix2 r q)
      = (V m c main_arg0 : Vec F S16384x16384 .f32) (ix2 (rowAt t.val r) (colAt (t.val % 8) q)) := by
  have hN : t.val < 256 := lt_of_lt_of_eq t.isLt (show cfg0.N = 256 from N_0)
  have hi := index0_eq t
  have hr := rowAt_val t.val hN r
  have hq := colAt_val (t.val % 8) (Nat.mod_lt _ (by decide)) q
  unfold iblk
  rw [View.read_apply]
  show V m c main_arg0 _ = V m c main_arg0 _
  congr 1
  funext a
  apply Fin.ext
  match a with
  | ⟨0, _⟩ =>
    show win0_0.index t 0 * 512 + 1 * r.val = (rowAt t.val r).val
    rw [hi.1, hr]; omega
  | ⟨1, _⟩ =>
    show win0_0.index t 1 * 2048 + 1 * q.val = (colAt (t.val % 8) q).val
    rw [hi.2, hq]; omega

/-- The second input block at a grid point, entry by entry, in the edge-count matrix. -/
theorem iblk1_apply (c : Dev nD) (t : Fin cfg0.N) (r : Fin 512) (q : Fin 2048) :
    (iblk m c 1 t : Vec F S512x2048 .f32) (ix2 r q)
      = (V m c main_v14 : Vec F S16384x16384 .f32) (ix2 (rowAt t.val r) (colAt (t.val % 8) q)) := by
  have hN : t.val < 256 := lt_of_lt_of_eq t.isLt (show cfg0.N = 256 from N_0)
  have hi := index1_eq t
  have hr := rowAt_val t.val hN r
  have hq := colAt_val (t.val % 8) (Nat.mod_lt _ (by decide)) q
  unfold iblk
  rw [View.read_apply]
  show V m c main_v14 _ = V m c main_v14 _
  congr 1
  funext a
  apply Fin.ext
  match a with
  | ⟨0, _⟩ =>
    show win0_1.index t 0 * 512 + 1 * r.val = (rowAt t.val r).val
    rw [hi.1, hr]; omega
  | ⟨1, _⟩ =>
    show win0_1.index t 1 * 2048 + 1 * q.val = (colAt (t.val % 8) q).val
    rw [hi.2, hq]; omega

end Cert.KernelIdeal.Hand

end
-- ==== Proof.KPieces.lean ====
/-
  What one run of the kernel body leaves behind, as values: the accumulator column after the body is the body's one
  arithmetic term — the previous column plus the row sums of the product of the two input blocks — applied to the
  blocks and to what the accumulator held before (the zero column at the first column block of a row block); at the
  last column block the output block is stored with the same column.
-/
import proofs.«414766_j26431228739590_1_alg».proof.Proof.Gen.KernelIdeal.Frame
import Idealize.ShloMosaic.Lib.Pipeline.Value
import Idealize.ShloMosaic.Lib.ValueIdx
import Idealize.ShloMosaic.Lib.Tactic

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable {F : FTy → Type} [FloatOps F]

/-- The zero offsets of a whole-buffer access. -/
private theorem hz : (![0, 0] : Fin 2 → Nat) = fun _ => 0 := funext fun a => by fin_cases a <;> rfl

/-- First column block of a row block: the accumulator is reset to the zero column, then the block's row sums are added. -/
theorem sout_A (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 x1 : Vec F S512x2048 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S512x1) hz, View.readCov_unit_zero (S := S512x1) _ hz]
  simp only [View.readAt_eq_ld, harg2.read_unread, harg3.read_unread, harg5.read_unread,
    View.ld_unit_zero (S := S512x2048) hz, View.ld_unit_zero (S := S512x1) hz]

/-- A middle column block: the block's row sums are added to what the accumulator held. -/
theorem sout_B (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 x1 : Vec F S512x2048 .f32) (xs0 : Vec F S512x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread,
    View.ld_unit_zero (S := S512x2048) hz, View.ld_unit_zero (S := S512x1) hz]

/-- The last column block: the same for the accumulator, -/
theorem sout_C (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 x1 : Vec F S512x2048 .f32) (xs0 : Vec F S512x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S512x1) hz]
  simp only [View.readAt_eq_ld, harg2.read_unread, harg3.read_unread, harg5.read_unread,
    View.ld_unit_zero (S := S512x2048) hz, View.ld_unit_zero (S := S512x1) hz]

/-- and the output block is stored with the accumulator's new column. -/
theorem out_C (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 x1 : Vec F S512x2048 .f32) (xs0 : Vec F S512x1 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S512x1) hz, View.readCov_unit_zero (S := S512x1) _ hz]
  simp only [View.readAt_eq_ld, harg2.read_unread, harg3.read_unread, harg5.read_unread,
    View.ld_unit_zero (S := S512x2048) hz, View.ld_unit_zero (S := S512x1) hz]

end Cert.KernelIdeal.Hand

end
-- ==== Proof.KPayload.lean ====
/-
  The body's arithmetic read at an index, over the extended reals: row `r` of the new accumulator column is row `r` of
  the old column plus the sum over the 2048 columns of the block of the products of the two input blocks' entries;
  the reset column is zero at every row.
-/
import proofs.«414766_j26431228739590_1_alg».proof.Proof.Gen.KernelIdeal.Skeleton
import proofs.«414766_j26431228739590_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)
open scoped BigOperators

/-- The reset column is zero at every row. -/
theorem pay1_apply (r : Fin 512) : (k0_pay1 (F := Ideal)) (ix2 r (0 : Fin 1)) = Cert.Spec.zero := by
  unfold k0_pay1
  rw [shapeCast_self]
  rfl

/-- Row `r` of the new accumulator column: the old entry plus the row's sum of products over the block's columns. -/
theorem pay2_apply (x0 x1 : FVec Ideal S512x2048 .f32) (xs : FVec Ideal S512x1 .f32) (r : Fin 512) :
    k0_pay2 (F := Ideal) x0 x1 xs (ix2 r (0 : Fin 1))
      = xs (ix2 r (0 : Fin 1)) + ∑ q : Fin 2048, x0 (ix2 r q) * x1 (ix2 r q) := by
  unfold k0_pay2
  dsimp only
  rw [shapeCast_self, shapeCast_self]
  rw [addf_apply]
  congr 1
  -- the unit axis appended to the row sums: entry (r, 0) of the column is entry r of the row sums
  rw [shapeCast_apply _ shapeCasts_S512_S512x1 (ix2 r (0 : Fin 1)) (ix1 r) (by
    rw [Shape.rowMajor_val_two, Shape.rowMajor_val_one]
    show r.val = r.val * 1 + 0
    omega)]
  -- the sum over the reduced axis, its inserted index being (r, q)
  refine (Ideal.multiReduction_add_single (mulf x0 x1) 0x00000000#32 reduces_S512x2048_S512 _ _ (ix1 r)).trans ?_
  refine Finset.sum_congr rfl fun (q : Fin 2048) _ => ?_
  have e : reduces_S512x2048_S512.lift (ix1 r) q = ix2 r q := by
    funext a
    match a with
    | ⟨0, _⟩ => rfl
    | ⟨1, _⟩ => rfl
  rw [e]
  rfl

end Cert.KernelIdeal.Hand

end
-- ==== Proof.LibBlockSum.lean ====
/-
  Sums over blocks of consecutive indices, and running sums: a sum over B blocks of S consecutive indices is the sum
  over all B·S indices; a sequence that starts at its first term and adds one more term at each step is the partial sum.
-/
import Mathlib.Algebra.BigOperators.Fin
import Mathlib.Data.Fintype.BigOperators
import Mathlib.Logic.Equiv.Fin.Basic

namespace Cert.BlockSum

open scoped BigOperators

/-- The `r`-th index of the `b`-th block of `S` consecutive indices, among `B` blocks, is below `B * S`. -/
theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- A sum over `B` blocks of `S` consecutive indices is the sum over all `B * S` indices: every index below
    `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

/-- Twelve blocks of 1024 consecutive indices make up the 12288 indices. -/
theorem sum_12x1024 {M : Type*} [AddCommMonoid M] (f : Fin 12288 → M) :
    ∑ b : Fin 12, ∑ r : Fin 1024, f ⟨1024 * b.val + r.val, by omega⟩ = ∑ n : Fin 12288, f n :=
  sum_blocks 12 1024 f

/-- Four blocks of 1536 consecutive indices make up the 6144 indices. -/
theorem sum_4x1536 {M : Type*} [AddCommMonoid M] (f : Fin 6144 → M) :
    ∑ b : Fin 4, ∑ r : Fin 1536, f ⟨1536 * b.val + r.val, by omega⟩ = ∑ n : Fin 6144, f n :=
  sum_blocks 4 1536 f

/-- A running sum from its first term: if `a 0 = g 0` and `a (j + 1) = a j + g (j + 1)` for every `j`, then
    `a j` is the sum of `g` over the first `j + 1` indices. -/
theorem running_sum {M : Type*} [AddCommMonoid M] (a g : ℕ → M) (h0 : a 0 = g 0)
    (hs : ∀ j, a (j + 1) = a j + g (j + 1)) (j : ℕ) : a j = ∑ i ∈ Finset.range (j + 1), g i := by
  induction j with
  | zero => rw [h0, Finset.sum_range_one]
  | succ j ih => rw [hs, ih, Finset.sum_range_succ _ (j + 1)]

/-- The sum over the first twelve naturals is the sum over `Fin 12`. -/
theorem sum_range_12 {M : Type*} [AddCommMonoid M] (g : ℕ → M) :
    ∑ i ∈ Finset.range 12, g i = ∑ b : Fin 12, g b.val :=
  Finset.sum_range g

/-- The sum over the first four naturals is the sum over `Fin 4`. -/
theorem sum_range_4 {M : Type*} [AddCommMonoid M] (g : ℕ → M) :
    ∑ i ∈ Finset.range 4, g i = ∑ b : Fin 4, g b.val :=
  Finset.sum_range g

end Cert.BlockSum
-- ==== Proof.KAccum.lean ====
/-
  The accumulator across the grid, over the extended reals. Within a row block the accumulator column starts, at the
  first column block, from zero plus that block's row sums of products, and each later column block adds its own; so
  after column block `k` row `r` of the column holds the partial sum of the row's products over the first `k + 1` column
  blocks, and after the eighth the sum over all 16384 columns: the row's dense sum, which is what the output block is
  stored with.
-/
import proofs.«414766_j26431228739590_1_alg».proof.Proof.Gen.KernelIdeal.Frame
import proofs.«414766_j26431228739590_1_alg».proof.Proof.Spec
import proofs.«414766_j26431228739590_1_alg».proof.Proof.KPieces
import proofs.«414766_j26431228739590_1_alg».proof.Proof.KPayload
import proofs.«414766_j26431228739590_1_alg».proof.Proof.KBlocks
import proofs.«414766_j26431228739590_1_alg».proof.Proof.LibBlockSum
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ)

/-- Row `row`'s products of `D` and `Mk` summed over the 2048 columns of column block `k`. -/
def blockSum (D Mk : Cert.Spec.SD.Idx → EReal) (row : Fin 16384) (k : ℕ) : EReal :=
  ∑ q : Fin 2048, D (ix2 row (colAt k q)) * Mk (ix2 row (colAt k q))

/-- The accumulator's value after column block `k`: zero plus block 0's sum, then one more block's sum each step. -/
def partialSum (D Mk : Cert.Spec.SD.Idx → EReal) (row : Fin 16384) : ℕ → EReal
  | 0 => Cert.Spec.zero + blockSum D Mk row 0
  | k + 1 => partialSum D Mk row k + blockSum D Mk row (k + 1)

/-- One run of the body's arithmetic on blocks whose entries are read in the two matrices: the old entry plus the
    row's products summed over column block `k`. -/
theorem step_of (D Mk : Cert.Spec.SD.Idx → EReal) (row : Fin 16384) (k : ℕ)
    (x0 x1 : FVec Ideal S512x2048 .f32) (xs : FVec Ideal S512x1 .f32) (r : Fin 512)
    (h0 : ∀ q : Fin 2048, x0 (ix2 r q) = D (ix2 row (colAt k q)))
    (h1 : ∀ q : Fin 2048, x1 (ix2 r q) = Mk (ix2 row (colAt k q))) :
    k0_pay2 (F := Ideal) x0 x1 xs (ix2 r (0 : Fin 1)) = xs (ix2 r (0 : Fin 1)) + blockSum D Mk row k := by
  rw [pay2_apply]
  unfold blockSum
  congr 1
  exact Finset.sum_congr rfl fun q _ => by rw [h0, h1]

/-- At the first column block of a row block the accumulator column is the body's term over the zero column. -/
theorem snd_A (c : Dev nD) (t : Fin cfg0.N) (h0 : t.val % 8 = 0) (h1 : ¬t.val % 8 = 7) :
    (outsAt0 (F := Ideal) m c t.val t.isLt).2
      = k0_pay2 (F := Ideal) (iblk m c 0 t) (iblk m c 1 t) (k0_pay1 (F := Ideal)) := by
  rw [outsAt0_A m c t h0 h1]
  exact sout_A (F := Ideal) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- At a middle column block it is the body's term over the column the point before left. -/
theorem snd_B (c : Dev nD) (t : Fin cfg0.N) (h0 : ¬t.val % 8 = 0) (h1 : ¬t.val % 8 = 7) :
    (outsAt0 (F := Ideal) m c t.val t.isLt).2
      = k0_pay2 (F := Ideal) (iblk m c 0 t) (iblk m c 1 t)
          (outsAt0 (F := Ideal) m c (t.val - 1) (Nat.lt_of_le_of_lt (Nat.sub_le _ _) t.isLt)).2 := by
  rw [outsAt0_B m c t h0 h1]
  exact sout_B (F := Ideal) c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h)) (iblk m c 0 t) (iblk m c 1 t)
    (outsAt0 (F := Ideal) m c (t.val - 1) (Nat.lt_of_le_of_lt (Nat.sub_le _ _) t.isLt)).2

/-- At the last column block the same, -/
theorem snd_C (c : Dev nD) (t : Fin cfg0.N) (h0 : ¬t.val % 8 = 0) (h1 : t.val % 8 = 7) :
    (outsAt0 (F := Ideal) m c t.val t.isLt).2
      = k0_pay2 (F := Ideal) (iblk m c 0 t) (iblk m c 1 t)
          (outsAt0 (F := Ideal) m c (t.val - 1) (Nat.lt_of_le_of_lt (Nat.sub_le _ _) t.isLt)).2 := by
  rw [outsAt0_C m c t h0 h1]
  exact sout_C (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 (F := Ideal) m c (t.val - 1) (Nat.lt_of_le_of_lt (Nat.sub_le _ _) t.isLt)).2

/-- and the output block is stored with that same column. -/
theorem fst_C (c : Dev nD) (t : Fin cfg0.N) (h0 : ¬t.val % 8 = 0) (h1 : t.val % 8 = 7) :
    (outsAt0 (F := Ideal) m c t.val t.isLt).1
      = k0_pay2 (F := Ideal) (iblk m c 0 t) (iblk m c 1 t)
          (outsAt0 (F := Ideal) m c (t.val - 1) (Nat.lt_of_le_of_lt (Nat.sub_le _ _) t.isLt)).2 := by
  rw [outsAt0_C m c t h0 h1]
  exact out_C (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 (F := Ideal) m c (t.val - 1) (Nat.lt_of_le_of_lt (Nat.sub_le _ _) t.isLt)).2

/-- Within a row block the point before a later column block is in the same row block. -/
theorem rowAt_pred (n : ℕ) (h0 : ¬n % 8 = 0) (r : Fin 512) : rowAt (n - 1) r = rowAt n r := by
  have h : (n - 1) / 8 = n / 8 := by omega
  apply Fin.ext
  show (512 * ((n - 1) / 8) + r.val) % 16384 = (512 * (n / 8) + r.val) % 16384
  rw [h]

/-- After grid point `n` the carried accumulator column holds, at row `r`, the partial sum over the column blocks
    up to `n % 8` of the row block's row `r`. -/
theorem outsAt_snd (c : Dev nD) : ∀ (n : ℕ) (hn : n < cfg0.N) (r : Fin 512),
    ((outsAt0 (F := Ideal) m c n hn).2 : FVec Ideal S512x1 .f32) (ix2 r (0 : Fin 1))
      = partialSum (V m c main_arg0) (V m c main_v14) (rowAt n r) (n % 8) := by
  intro n
  induction n using Nat.strong_induction_on with
  | _ n ih =>
    intro hn r
    have hN : n < 256 := lt_of_lt_of_eq hn (show cfg0.N = 256 from N_0)
    by_cases h0 : n % 8 = 0
    · have h1 : ¬n % 8 = 7 := by omega
      have e : (outsAt0 (F := Ideal) m c n hn).2 = _ := snd_A m c ⟨n, hn⟩ h0 h1
      have hs := step_of (V m c main_arg0) (V m c main_v14) (rowAt n r) (n % 8) (iblk m c 0 ⟨n, hn⟩) (iblk m c 1 ⟨n, hn⟩)
        (k0_pay1 (F := Ideal)) r (fun q => iblk0_apply m c ⟨n, hn⟩ r q) (fun q => iblk1_apply m c ⟨n, hn⟩ r q)
      refine (congrFun e (ix2 r (0 : Fin 1))).trans (hs.trans ?_)
      rw [pay1_apply, h0]
      rfl
    · have hp := ih (n - 1) (by omega) (Nat.lt_of_le_of_lt (Nat.sub_le _ _) hn) r
      have hs := step_of (V m c main_arg0) (V m c main_v14) (rowAt n r) (n % 8) (iblk m c 0 ⟨n, hn⟩) (iblk m c 1 ⟨n, hn⟩)
        (outsAt0 (F := Ideal) m c (n - 1) (Nat.lt_of_le_of_lt (Nat.sub_le _ _) hn)).2 r
        (fun q => iblk0_apply m c ⟨n, hn⟩ r q) (fun q => iblk1_apply m c ⟨n, hn⟩ r q)
      have e : (outsAt0 (F := Ideal) m c n hn).2
          = k0_pay2 (F := Ideal) (iblk m c 0 ⟨n, hn⟩) (iblk m c 1 ⟨n, hn⟩)
              (outsAt0 (F := Ideal) m c (n - 1) (Nat.lt_of_le_of_lt (Nat.sub_le _ _) hn)).2 := by
        by_cases h1 : n % 8 = 7
        · exact snd_C m c ⟨n, hn⟩ h0 h1
        · exact snd_B m c ⟨n, hn⟩ h0 h1
      obtain ⟨k, hk⟩ : ∃ k, n % 8 = k + 1 := ⟨n % 8 - 1, by omega⟩
      have hk' : (n - 1) % 8 = k := by omega
      refine (congrFun e (ix2 r (0 : Fin 1))).trans (hs.trans ?_)
      rw [hp, rowAt_pred n h0 r, hk', hk]
      rfl

/-- At the last column block of a row block the output block is stored with the full partial sum. -/
theorem outsAt_fst (c : Dev nD) (t : Fin cfg0.N) (h7 : t.val % 8 = 7) (r : Fin 512) :
    ((outsAt0 (F := Ideal) m c t.val t.isLt).1 : FVec Ideal S512x1 .f32) (ix2 r (0 : Fin 1))
      = partialSum (V m c main_arg0) (V m c main_v14) (rowAt t.val r) 7 := by
  have h0 : ¬t.val % 8 = 0 := by omega
  have e1 := fst_C m c t h0 h7
  have e2 := snd_C m c t h0 h7
  have hs := outsAt_snd m c t.val t.isLt r
  rw [h7] at hs
  exact (congrFun (e1.trans e2.symm) (ix2 r (0 : Fin 1))).trans hs

/-- The partial sum after column block `k` is zero plus the sum of the first `k + 1` blocks' sums. -/
theorem partialSum_eq (D Mk : Cert.Spec.SD.Idx → EReal) (row : Fin 16384) (k : ℕ) :
    partialSum D Mk row k = Cert.Spec.zero + ∑ j ∈ Finset.range (k + 1), blockSum D Mk row j := by
  induction k with
  | zero => rw [Finset.sum_range_one]; rfl
  | succ k ih =>
    rw [Finset.sum_range_succ _ (k + 1), ← add_assoc, ← ih]
    rfl

/-- Eight blocks of 2048 consecutive columns make up the 16384 columns. -/
theorem sum_8x2048 {M : Type*} [AddCommMonoid M] (f : Fin 16384 → M) :
    ∑ b : Fin 8, ∑ q : Fin 2048, f ⟨2048 * b.val + q.val, by omega⟩ = ∑ n : Fin 16384, f n :=
  Cert.BlockSum.sum_blocks 8 2048 f

/-- Eight column blocks of 2048 columns are all 16384 columns: the partial sum after the eighth is the row's dense sum. -/
theorem partialSum_seven (D Mk : Cert.Spec.SD.Idx → EReal) (row : Fin 16384) :
    partialSum D Mk row 7 = Cert.Spec.rowSum D Mk row := by
  rw [partialSum_eq]
  show Cert.Spec.zero + ∑ j ∈ Finset.range 8, blockSum D Mk row j = _
  rw [Finset.sum_range (fun j => blockSum D Mk row j)]
  unfold Cert.Spec.rowSum blockSum
  refine congrArg (fun x => Cert.Spec.zero + x) ?_
  rw [← sum_8x2048 (fun n => D (ix2 row n) * Mk (ix2 row n))]
  refine Finset.sum_congr rfl fun b _ => Finset.sum_congr rfl fun q _ => ?_
  have hc : colAt b.val q = ⟨2048 * b.val + q.val, by omega⟩ := Fin.ext (by
    show (2048 * b.val + q.val) % 16384 = 2048 * b.val + q.val
    exact Nat.mod_eq_of_lt (by omega))
  rw [hc]

end Cert.KernelIdeal.Hand

end
-- ==== Proof.KFinal.lean ====
/-
  The kernel's result array. The output window's block at a grid point is the row block's 512 rows of the one-column
  result; it is written back at the last column block of each row block, with the rows' dense sums; the 32 written
  blocks tile the 16384 rows, so the array ends holding, at row `r`, the dense sum of row `r`.
-/
import proofs.«414766_j26431228739590_1_alg».proof.Proof.Gen.KernelIdeal.Frame
import proofs.«414766_j26431228739590_1_alg».proof.Proof.Spec
import proofs.«414766_j26431228739590_1_alg».proof.Proof.KBlocks
import proofs.«414766_j26431228739590_1_alg».proof.Proof.KAccum
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ)

/-- The whole result array as one function of the two matrices: row `j 0` holds that row's dense sum. -/
def rowSums (c : Dev nD) : S16384x1.Idx → Elt Ideal .f32 :=
  fun j => Cert.Spec.rowSum (V m c main_arg0) (V m c main_v14) ⟨(j 0).val, (j 0).isLt⟩

/-- The output window's index map over the grid: point `t` writes row block `t / 8` of the one column. -/
theorem index2_eq : ∀ t : Fin cfg0.N, win0_2.index t 0 = t.val / 8 ∧ win0_2.index t 1 = 0 :=
  (by decide +kernel : ∀ t : Fin grid0.N, win0_2.index t 0 = t.val / 8 ∧ win0_2.index t 1 = 0)

/-- What a flushing point writes back is its block of `rowSums`. -/
theorem flushed_rowSums (c : Dev nD) (t : Fin cfg0.N) (hf : (cfg0.win 2).flush t = true) :
    (dats (F := Ideal) m 0 c).flushed 2 t = ((cfg0.win 2).blk t).view.read (Elt Ideal) (rowSums m c) := by
  have h7 := (flush0_2 t).mp hf
  have hN : t.val < 256 := lt_of_lt_of_eq t.isLt (show cfg0.N = 256 from N_0)
  have hi := index2_eq t
  show (cfg0.win 2).cut (grid0.coords t) ((dats m 0 c).after 2 t) = _
  rw [after0_2]
  funext y
  obtain ⟨r, q, rfl⟩ : ∃ (r : Fin 512) (q : Fin 1), y = ix2 r q := ⟨y 0, y 1, eq_ix2 (n0 := 512) (n1 := 1) y⟩
  obtain rfl : q = 0 := Subsingleton.elim _ _
  show ((outsAt0 (F := Ideal) m c t.val t.isLt).1 : FVec Ideal S512x1 .f32) (ix2 r (0 : Fin 1)) = _
  rw [outsAt_fst m c t h7 r, partialSum_seven, View.read_apply]
  show Cert.Spec.rowSum (V m c main_arg0) (V m c main_v14) (rowAt t.val r)
    = Cert.Spec.rowSum (V m c main_arg0) (V m c main_v14) _
  congr 1
  apply Fin.ext
  show (rowAt t.val r).val = win0_2.index t 0 * 512 + 1 * r.val
  rw [hi.1, rowAt_val t.val hN r]
  omega

/-- Every row of the result is in the block written back at the last column block of its row block. -/
theorem rows_covered (i : S16384x1.Idx) :
    ∃ t : Fin cfg0.N, (cfg0.win 2).flush t = true ∧ i ∈ ((cfg0.win 2).blk t).view.set := by
  have h0 : (i 0).val < 16384 := (i 0).isLt
  have h1 : (i 1).val < 1 := (i 1).isLt
  have hN : cfg0.N = 256 := N_0
  have ht : 8 * ((i 0).val / 512) + 7 < cfg0.N := by rw [hN]; omega
  have hi := index2_eq ⟨8 * ((i 0).val / 512) + 7, ht⟩
  have hd : (8 * ((i 0).val / 512) + 7) / 8 = (i 0).val / 512 := by omega
  refine ⟨⟨8 * ((i 0).val / 512) + 7, ht⟩, (flush0_2 _).mpr (by show (8 * ((i 0).val / 512) + 7) % 8 = 7; omega), ?_⟩
  show i ∈ ((View.whole main_v15).slice (win0_2.rect ⟨8 * ((i 0).val / 512) + 7, ht⟩)).set
  rw [View.set_slice_whole, Rect.mem_set_unit]
  intro a
  match a with
  | ⟨0, _⟩ =>
    show win0_2.index ⟨8 * ((i 0).val / 512) + 7, ht⟩ 0 * 512 ≤ (i 0).val
      ∧ (i 0).val < win0_2.index ⟨8 * ((i 0).val / 512) + 7, ht⟩ 0 * 512 + 512
    rw [hi.1]
    show (8 * ((i 0).val / 512) + 7) / 8 * 512 ≤ (i 0).val ∧ (i 0).val < (8 * ((i 0).val / 512) + 7) / 8 * 512 + 512
    rw [hd]
    omega
  | ⟨1, _⟩ =>
    show win0_2.index ⟨8 * ((i 0).val / 512) + 7, ht⟩ 1 * 1 ≤ (i 1).val
      ∧ (i 1).val < win0_2.index ⟨8 * ((i 0).val / 512) + 7, ht⟩ 1 * 1 + 1
    rw [hi.2]
    omega

/-- After the run the result array holds at row `r` the dense sum of row `r`: the matrix row against the edge-count
    matrix's row, over all columns. -/
theorem final (c : Dev nD) (r : Fin 16384) :
    ((dats (F := Ideal) m 0 c).arrAt 2 cfg0.N : FVec Ideal S16384x1 .f32) (ix2 r (0 : Fin 1))
      = Cert.Spec.rowSum (V m c main_arg0) (V m c main_v14) r := by
  have h := (dats (F := Ideal) m 0 c).arrAt_eq_of_cover 2 (rowSums m c) (flushed_rowSums m c) rows_covered
  exact congrFun h (ix2 r (0 : Fin 1))

end Cert.KernelIdeal.Hand

end
-- ==== Proof.LibCells.lean ====
/-
  Host scatters and gathers whose every update (or result) element is ONE scalar placed by index words, read at an
  index; and two columns of words joined side by side, read at an index.

    • A table of `N` entries and an `M × 1` column of index words, one scalar update per word: the accumulating scatter
      leaves at entry `u` its old value plus the sum of the updates whose word, read signed, is `u` (an update whose
      word names no entry is dropped).
    • A table of `N` rows and `C` columns and an `M × 2` array of index words (row word, column word), one scalar update
      per pair: the accumulating scatter leaves at cell `(u, v)` its old value plus the sum of the updates whose two
      words, read signed, are `u` and `v`.
    • The gather by such an `M × 2` array reads, at `e`, the table at the two words of `e`, each read signed and clamped
      into the table.
    • Two `M × 1` columns joined along the second axis: entry `(e, 0)` is the first column's, `(e, 1)` the second's.
  Nothing here depends on the sizes.
-/
import Idealize.ShloMosaic.PureOps.Ideal
import Idealize.ShloMosaic.PureOps.ShapeOps
import Idealize.ShloMosaic.PureOps.Contract
import Idealize.ShloMosaic.Lib.ValueIdx
import Idealize.ShloMosaic.Lib.Pipeline.Value

noncomputable section

namespace Cert.LibCells

open Idealize.ShloMosaic Idealize.ShloMosaic.ValueIdx
open scoped BigOperators

/-! ## Where an update lands, for any dimension numbers -/

/-- An update index lands on element `i` exactly when, on every operand axis, its start plus its window coordinate is
    `i`'s coordinate: the sum is then inside the operand because `i` is, and the landing index is read off it. -/
theorem resultIdx?_eq_some_iff {s si su : Shape} {w : Nat} (d : ScatterDims s si su) (idx : IVec si w) (jj : su.Idx)
    (i : s.Idx) :
    d.resultIdx? jj idx = some i ↔ ∀ a, d.start jj idx a + (d.window jj a : ℤ) = ((i a).val : ℤ) := by
  unfold ScatterDims.resultIdx?
  constructor
  · intro h a
    split at h
    · rename_i hin
      have hcoord : (d.start jj idx a + (d.window jj a : ℤ)).toNat = (i a).val :=
        congrArg (fun f => (f a).val) (Option.some.inj h)
      have hpos := (hin a).1
      omega
    · exact absurd h (by simp)
  · intro h
    have hin : ∀ a, 0 ≤ d.start jj idx a + (d.window jj a : ℤ)
        ∧ d.start jj idx a + (d.window jj a : ℤ) < (s.size a : ℤ) := by
      intro a
      have hlt := (i a).isLt
      rw [h a]
      constructor <;> omega
    rw [dif_pos hin]
    refine congrArg some (funext fun a => Fin.ext ?_)
    show (d.start jj idx a + (d.window jj a : ℤ)).toNat = (i a).val
    rw [h a]
    simp

/-- A sum over the rank-one indices below `M` that satisfy `p` is the sum over the positions `e < M` whose index
    `ix1 e` satisfies it: an index of rank one is its one coordinate. -/
theorem sum_filter_ix1 {M : Nat} {β : Type} [AddCommMonoid β] (p : (⟨1, ![M]⟩ : Shape).Idx → Prop) [DecidablePred p]
    (q : Fin M → Prop) [DecidablePred q] (hpq : ∀ e, p (ix1 e) ↔ q e) (f : (⟨1, ![M]⟩ : Shape).Idx → β) :
    ∑ jj ∈ Finset.univ.filter p, f jj = ∑ e ∈ Finset.univ.filter q, f (ix1 e) := by
  -- an index satisfies `p` exactly when its coordinate satisfies `q`
  have hp : ∀ jj : (⟨1, ![M]⟩ : Shape).Idx, p jj ↔ q (jj 0) := fun jj =>
    (iff_of_eq (congrArg p (eq_ix1 jj))).trans (hpq (jj 0))
  refine Finset.sum_nbij' (fun jj => (jj 0 : Fin M)) (fun e => ix1 e) ?_ ?_ ?_ ?_ ?_
  · intro jj hjj
    exact Finset.mem_filter.mpr ⟨Finset.mem_univ _, (hp jj).mp (Finset.mem_filter.mp hjj).2⟩
  · intro e he
    exact Finset.mem_filter.mpr ⟨Finset.mem_univ _, (hpq e).mpr (Finset.mem_filter.mp he).2⟩
  · intro jj _
    exact (eq_ix1 jj).symm
  · intro e _
    rfl
  · intro jj _
    exact congrArg f (eq_ix1 jj)

/-! ## One word per update: a table of entries -/

section Scatter1

variable {N M w : Nat}

/-- With the table's one axis inserted and named by the one word of a row: the start of update `jj` is the word of row
    `jj`, read signed, and its window coordinate is zero. -/
theorem start_window1 (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1) (idx : IVec ⟨2, ![M, 1]⟩ w) (jj : (⟨1, ![M]⟩ : Shape).Idx) :
    d.start jj idx 0 = (idx (ix2 (n0 := M) (n1 := 1) (jj 0) 0)).toInt ∧ d.window jj 0 = 0 := by
  cases d with
  | mk uw iw sd iv wf =>
    obtain rfl : uw = [] := huw
    obtain rfl : iw = [0] := hiw
    obtain rfl : sd = [0] := hsd
    obtain rfl : iv = 1 := hivd
    constructor
    · unfold ScatterDims.start
      rw [dif_pos (List.mem_singleton.mpr rfl)]
      refine congrArg (fun k => (idx k).toInt) (funext fun b => ?_)
      match b with
      | ⟨0, _⟩ => exact Fin.ext rfl
      | ⟨1, _⟩ => exact Fin.ext rfl
    · unfold ScatterDims.window
      exact dif_neg (by decide : (0 : Fin 1) ∉ (List.finRange 1).filter (· ∉ [0]))

/-- Update `jj` lands on entry `i` exactly when its word, read signed, is `i`'s position. -/
theorem lands1_iff (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1) (idx : IVec ⟨2, ![M, 1]⟩ w) (jj : (⟨1, ![M]⟩ : Shape).Idx)
    (i : (⟨1, ![N]⟩ : Shape).Idx) :
    d.resultIdx? jj idx = some i ↔ (idx (ix2 (n0 := M) (n1 := 1) (jj 0) 0)).toInt = ((i 0).val : ℤ) := by
  obtain ⟨hs, hw⟩ := start_window1 d huw hiw hsd hivd idx jj
  rw [resultIdx?_eq_some_iff]
  constructor
  · intro h
    have h0 := h 0
    rw [hs, hw] at h0
    simpa using h0
  · intro h a
    match a with
    | ⟨0, _⟩ =>
      show d.start jj idx 0 + (d.window jj 0 : ℤ) = ((i 0).val : ℤ)
      rw [hs, hw, h]
      simp

end Scatter1

/-- The accumulating scatter of scalars into a table of `N` entries by an `M × 1` column of words. -/
theorem scatterAdd1_apply {N M w : Nat} {φ : FTy} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![M, 1]⟩ w) (upd : FVec Ideal ⟨1, ![M]⟩ φ) (u : Fin N) :
    Host.scatterAdd (F := Ideal) d x idx upd (ix1 u)
      = x (ix1 u) + ∑ e ∈ Finset.univ.filter (fun e : Fin M => (idx (ix2 e (0 : Fin 1))).toInt = (u.val : ℤ)),
          upd (ix1 e) := by
  show Ideal.hostScatterAdd d x idx upd (ix1 u) = _
  unfold Ideal.hostScatterAdd
  refine congrArg (x (ix1 u) + ·) ?_
  exact sum_filter_ix1 _ _ (fun e => lands1_iff d huw hiw hsd hivd idx (ix1 e) (ix1 u)) upd

/-! ## Two words per update: a table of cells -/

section Scatter2

variable {N C M w : Nat}

/-- With both of the table's axes inserted, the row axis named by a pair's first word and the column axis by its
    second: the starts of update `jj` are the two words of row `jj`, read signed, and both window coordinates are
    zero. -/
theorem start_window2 (d : ScatterDims ⟨2, ![N, C]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (idx : IVec ⟨2, ![M, 2]⟩ w) (jj : (⟨1, ![M]⟩ : Shape).Idx) :
    d.start jj idx 0 = (idx (ix2 (n0 := M) (n1 := 2) (jj 0) 0)).toInt
      ∧ d.start jj idx 1 = (idx (ix2 (n0 := M) (n1 := 2) (jj 0) 1)).toInt
      ∧ d.window jj 0 = 0 ∧ d.window jj 1 = 0 := by
  cases d with
  | mk uw iw sd iv wf =>
    obtain rfl : uw = [] := huw
    obtain rfl : iw = [0, 1] := hiw
    obtain rfl : sd = [0, 1] := hsd
    obtain rfl : iv = 1 := hivd
    refine ⟨?_, ?_, ?_, ?_⟩
    · unfold ScatterDims.start
      rw [dif_pos (by decide : (0 : Fin 2) ∈ [(0 : Fin 2), 1])]
      refine congrArg (fun k => (idx k).toInt) (funext fun b => ?_)
      match b with
      | ⟨0, _⟩ => exact Fin.ext rfl
      | ⟨1, _⟩ => exact Fin.ext rfl
    · unfold ScatterDims.start
      rw [dif_pos (by decide : (1 : Fin 2) ∈ [(0 : Fin 2), 1])]
      refine congrArg (fun k => (idx k).toInt) (funext fun b => ?_)
      match b with
      | ⟨0, _⟩ => exact Fin.ext rfl
      | ⟨1, _⟩ => exact Fin.ext rfl
    · unfold ScatterDims.window
      exact dif_neg (by decide : (0 : Fin 2) ∉ (List.finRange 2).filter (· ∉ [(0 : Fin 2), 1]))
    · unfold ScatterDims.window
      exact dif_neg (by decide : (1 : Fin 2) ∉ (List.finRange 2).filter (· ∉ [(0 : Fin 2), 1]))

/-- Update `jj` lands on cell `i` exactly when its two words, read signed, are `i`'s row and column. -/
theorem lands2_iff (d : ScatterDims ⟨2, ![N, C]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (idx : IVec ⟨2, ![M, 2]⟩ w) (jj : (⟨1, ![M]⟩ : Shape).Idx) (i : (⟨2, ![N, C]⟩ : Shape).Idx) :
    d.resultIdx? jj idx = some i
      ↔ (idx (ix2 (n0 := M) (n1 := 2) (jj 0) 0)).toInt = ((i 0).val : ℤ)
        ∧ (idx (ix2 (n0 := M) (n1 := 2) (jj 0) 1)).toInt = ((i 1).val : ℤ) := by
  obtain ⟨hs0, hs1, hw0, hw1⟩ := start_window2 d huw hiw hsd hivd idx jj
  rw [resultIdx?_eq_some_iff]
  constructor
  · intro h
    have h0 := h 0
    have h1 := h 1
    rw [hs0, hw0] at h0
    rw [hs1, hw1] at h1
    exact ⟨by simpa using h0, by simpa using h1⟩
  · rintro ⟨h0, h1⟩ a
    match a with
    | ⟨0, _⟩ =>
      show d.start jj idx 0 + (d.window jj 0 : ℤ) = ((i 0).val : ℤ)
      rw [hs0, hw0, h0]
      simp
    | ⟨1, _⟩ =>
      show d.start jj idx 1 + (d.window jj 1 : ℤ) = ((i 1).val : ℤ)
      rw [hs1, hw1, h1]
      simp

end Scatter2

/-- The accumulating scatter of scalars into a table of `N × C` cells by an `M × 2` array of (row, column) words. -/
theorem scatterAdd2_apply {N C M w : Nat} {φ : FTy} (d : ScatterDims ⟨2, ![N, C]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (x : FVec Ideal ⟨2, ![N, C]⟩ φ) (idx : IVec ⟨2, ![M, 2]⟩ w) (upd : FVec Ideal ⟨1, ![M]⟩ φ) (u : Fin N) (v : Fin C) :
    Host.scatterAdd (F := Ideal) d x idx upd (ix2 u v)
      = x (ix2 u v) + ∑ e ∈ Finset.univ.filter (fun e : Fin M =>
            (idx (ix2 e (0 : Fin 2))).toInt = (u.val : ℤ) ∧ (idx (ix2 e (1 : Fin 2))).toInt = (v.val : ℤ)),
          upd (ix1 e) := by
  show Ideal.hostScatterAdd d x idx upd (ix2 u v) = _
  unfold Ideal.hostScatterAdd
  refine congrArg (x (ix2 u v) + ·) ?_
  exact sum_filter_ix1 _ _ (fun e => lands2_iff d huw hiw hsd hivd idx (ix1 e) (ix2 u v)) upd

/-! ## The gather by two words -/

/-- The gather of scalars from a table of `N × C` cells by an `M × 2` array of (row, column) words: each word read
    signed and clamped into the table. -/
theorem gather2_apply {α : Type} {N C M w : Nat} (d : GatherDims ⟨2, ![N, C]⟩ ⟨2, ![M, 2]⟩ ⟨1, ![M]⟩)
    (hoff : d.offsetDims = []) (hcoll : d.collapsedSliceDims = [0, 1]) (hob : d.operandBatchingDims = [])
    (hsim : d.startIndexMap = [0, 1]) (hivd : d.indexVectorDim = 1)
    (x : (⟨2, ![N, C]⟩ : Shape).Idx → α) (idx : IVec ⟨2, ![M, 2]⟩ w) (e : Fin M) (hN : 0 < N) (hC : 0 < C) :
    Host.gather d x idx (ix1 e)
      = x (ix2 ⟨min (idx (ix2 e (0 : Fin 2))).toInt.toNat (N - 1), by omega⟩
               ⟨min (idx (ix2 e (1 : Fin 2))).toInt.toNat (C - 1), by omega⟩) := by
  -- both axes are collapsed, so the slice taken along each is one element
  have hsl0 : d.sliceSizes 0 = 1 := d.slice_collapsed 0 (by rw [hcoll]; exact List.mem_cons.mpr (Or.inl rfl))
  have hsl1 : d.sliceSizes 1 = 1 :=
    d.slice_collapsed 1 (by rw [hcoll]; exact List.mem_cons.mpr (Or.inr (List.mem_singleton.mpr rfl)))
  unfold Host.gather
  refine congrArg x ?_
  cases d with
  | mk od cd ob sb sm iv ss wf =>
    obtain rfl : od = [] := hoff
    obtain rfl : cd = [0, 1] := hcoll
    obtain rfl : ob = [] := hob
    obtain rfl : sm = [0, 1] := hsim
    obtain rfl : iv = 1 := hivd
    replace hsl0 : ss 0 = 1 := hsl0
    replace hsl1 : ss 1 = 1 := hsl1
    funext a
    match a with
    | ⟨0, _⟩ =>
      apply Fin.ext
      show GatherDims.start _ (ix1 e) idx 0 + GatherDims.batchCoord _ (ix1 e) 0 + GatherDims.offCoord _ (ix1 e) 0
        = min (idx (ix2 e (0 : Fin 2))).toInt.toNat (N - 1)
      rw [GatherDims.batchCoord_eq_zero _ _ _ List.not_mem_nil,
        GatherDims.offCoord_eq_zero _ _ _
          (by decide : (0 : Fin 2) ∉ (List.finRange 2).filter (· ∉ [(0 : Fin 2), 1] ++ []))]
      simp only [Nat.add_zero]
      unfold GatherDims.start
      rw [dif_pos (by decide : (0 : Fin 2) ∈ [(0 : Fin 2), 1])]
      show min (idx _).toInt.toNat (N - ss 0) = _
      rw [hsl0]
      refine congrArg (fun k => min (idx k).toInt.toNat (N - 1)) (funext fun b => ?_)
      match b with
      | ⟨0, _⟩ => exact Fin.ext rfl
      | ⟨1, _⟩ => exact Fin.ext rfl
    | ⟨1, _⟩ =>
      apply Fin.ext
      show GatherDims.start _ (ix1 e) idx 1 + GatherDims.batchCoord _ (ix1 e) 1 + GatherDims.offCoord _ (ix1 e) 1
        = min (idx (ix2 e (1 : Fin 2))).toInt.toNat (C - 1)
      rw [GatherDims.batchCoord_eq_zero _ _ _ List.not_mem_nil,
        GatherDims.offCoord_eq_zero _ _ _
          (by decide : (1 : Fin 2) ∉ (List.finRange 2).filter (· ∉ [(0 : Fin 2), 1] ++ []))]
      simp only [Nat.add_zero]
      unfold GatherDims.start
      rw [dif_pos (by decide : (1 : Fin 2) ∈ [(0 : Fin 2), 1])]
      show min (idx _).toInt.toNat (C - ss 1) = _
      rw [hsl1]
      refine congrArg (fun k => min (idx k).toInt.toNat (C - 1)) (funext fun b => ?_)
      match b with
      | ⟨0, _⟩ => exact Fin.ext rfl
      | ⟨1, _⟩ => exact Fin.ext rfl

/-! ## Two columns side by side -/

/-- Two `M × 1` columns joined along the second axis, at the first column. -/
theorem concat_cols_apply0 {α : Type} {M : Nat} (a b : (⟨2, ![M, 1]⟩ : Shape).Idx → α)
    (h : Shape.Concatenates [(⟨2, ![M, 1]⟩ : Shape), ⟨2, ![M, 1]⟩] ⟨2, ![M, 2]⟩ 1) (e : Fin M) :
    concatenate ⟨2, ![M, 2]⟩ 1 [⟨⟨2, ![M, 1]⟩, a⟩, ⟨⟨2, ![M, 1]⟩, b⟩] h (ix2 e (0 : Fin 2)) = a (ix2 e (0 : Fin 1)) := by
  -- position 0 along the joined axis is below the first column's extent 1: the first column, same coordinates
  refine concatenate_pair_apply_left 1 a b h (ix2 e (0 : Fin 2)) rfl (ix2 e (0 : Fin 1)) ?_
  intro c
  match c with
  | ⟨0, _⟩ => rfl
  | ⟨1, _⟩ => rfl

/-- Two `M × 1` columns joined along the second axis, at the second column. -/
theorem concat_cols_apply1 {α : Type} {M : Nat} (a b : (⟨2, ![M, 1]⟩ : Shape).Idx → α)
    (h : Shape.Concatenates [(⟨2, ![M, 1]⟩ : Shape), ⟨2, ![M, 1]⟩] ⟨2, ![M, 2]⟩ 1) (e : Fin M) :
    concatenate ⟨2, ![M, 2]⟩ 1 [⟨⟨2, ![M, 1]⟩, a⟩, ⟨⟨2, ![M, 1]⟩, b⟩] h (ix2 e (1 : Fin 2)) = b (ix2 e (0 : Fin 1)) := by
  -- position 1 along the joined axis is past the first column's extent 1: the second column at 1 − 1 = 0
  refine concatenate_pair_apply_right 1 a b h (ix2 e (1 : Fin 2)) rfl rfl (ix2 e (0 : Fin 1)) ?_ ?_
  · intro c hc
    match c with
    | ⟨0, _⟩ => rfl
    | ⟨1, _⟩ => exact absurd rfl hc
  · rfl

end Cert.LibCells

end
-- ==== Proof.IndexWords.lean ====
/-
  The index words as the two programs prepare them: a word below zero gets the table's length added (a word in range is
  left as it is), each vector of words is stood up as a column, and the row and column columns are joined into pairs.
  For words in range the pair at edge `e` is the edge's own row word and column word.
-/
import Idealize.ShloMosaic.PureOps
import Idealize.ShloMosaic.Lib.ValueIdx
import Idealize.ShloMosaic.Lib.ValueLayout
import Idealize.ShloMosaic.Lib.Pipeline.Value
import proofs.«414766_j26431228739590_1_alg».proof.Proof.Spec
import proofs.«414766_j26431228739590_1_alg».proof.Proof.LibCells

noncomputable section

namespace Cert.IndexWords

open Idealize.ShloMosaic Idealize.ShloMosaic.ValueIdx

/-! ## One word -/

/-- A word that, read signed, is not negative does not compare as below zero. -/
theorem slt_zero_of_nonneg {w : BitVec 32} (h : 0 ≤ w.toInt) : IntOp.cmpi .slt w 0#32 = 0#1 := by
  have hs : w.slt 0#32 = false := by
    rw [BitVec.slt_eq_decide]
    exact decide_eq_false (by rw [BitVec.toInt_zero]; omega)
  show BitVec.ofBool (w.slt 0#32) = 0#1
  rw [hs]
  rfl

/-- The wrap of one word: a word that is not negative is kept. -/
theorem wrap_word {w : BitVec 32} (h : 0 ≤ w.toInt) (a : BitVec 32) :
    Scalar.select (IntOp.cmpi .slt w 0#32) a w = w := by
  rw [slt_zero_of_nonneg h, select_zero]

/-! ## A vector of words -/

/-- The wrap of a vector of words in range, read at an edge, is the edge's word. -/
theorem wrap_apply (hb : (⟨0, ![]⟩ : Shape).BroadcastsInDim ⟨1, ![524288]⟩ (![] : Fin 0 → Fin (⟨1, ![524288]⟩ : Shape).rank))
    (x : IVec ⟨1, ![524288]⟩ 32) (h : Cert.Spec.InRange x) (e : Fin 524288) :
    select (cmpi .slt x (broadcastInDim ⟨1, ![524288]⟩ ![] hb (constantI ⟨0, ![]⟩ 32 0#32)))
      (addi x (broadcastInDim ⟨1, ![524288]⟩ ![] hb (constantI ⟨0, ![]⟩ 32 16384#32))) x (ix1 e) = x (ix1 e) :=
  wrap_word (h e).1 _

/-- The wrap of a vector of words in range is the vector. -/
theorem wrap_eq (hb : (⟨0, ![]⟩ : Shape).BroadcastsInDim ⟨1, ![524288]⟩ (![] : Fin 0 → Fin (⟨1, ![524288]⟩ : Shape).rank))
    (x : IVec ⟨1, ![524288]⟩ 32) (h : Cert.Spec.InRange x) :
    select (cmpi .slt x (broadcastInDim ⟨1, ![524288]⟩ ![] hb (constantI ⟨0, ![]⟩ 32 0#32)))
      (addi x (broadcastInDim ⟨1, ![524288]⟩ ![] hb (constantI ⟨0, ![]⟩ 32 16384#32))) x = x := by
  funext i
  rw [eq_ix1 i]
  exact wrap_apply hb x h (i 0)

/-! ## A vector stood up as a column -/

/-- A vector of `M` entries as an `M × 1` column reads, at `(e, 0)`, the vector at `e`. -/
theorem column_apply {α : Type} {M : Nat}
    (hb1 : (⟨1, ![M]⟩ : Shape).BroadcastsInDim ⟨2, ![M, 1]⟩ (![0] : Fin 1 → Fin (⟨2, ![M, 1]⟩ : Shape).rank))
    (v : (⟨1, ![M]⟩ : Shape).Idx → α) (e : Fin M) :
    broadcastInDim ⟨2, ![M, 1]⟩ ![0] hb1 v (ix2 e (0 : Fin 1)) = v (ix1 e) := by
  refine broadcastInDim_apply _ hb1 v _ (ix1 e) (fun a => ?_)
  match a with
  | ⟨0, _⟩ =>
    show e.val = if M = 1 then 0 else e.val
    have he := e.isLt
    split
    · omega
    · rfl

/-! ## The pairs -/

/-- The pair array of two word vectors in range: the first word of pair `e` is the row word of edge `e`. -/
theorem pairs_apply0 (hb : (⟨0, ![]⟩ : Shape).BroadcastsInDim ⟨1, ![524288]⟩ (![] : Fin 0 → Fin (⟨1, ![524288]⟩ : Shape).rank))
    (hb1 : (⟨1, ![524288]⟩ : Shape).BroadcastsInDim ⟨2, ![524288, 1]⟩ (![0] : Fin 1 → Fin (⟨2, ![524288, 1]⟩ : Shape).rank))
    (hc : Shape.Concatenates [(⟨2, ![524288, 1]⟩ : Shape), ⟨2, ![524288, 1]⟩] ⟨2, ![524288, 2]⟩ 1)
    (rows cols : IVec ⟨1, ![524288]⟩ 32) (hr : Cert.Spec.InRange rows) (hcl : Cert.Spec.InRange cols) (e : Fin 524288) :
    concatenate ⟨2, ![524288, 2]⟩ 1
      [⟨⟨2, ![524288, 1]⟩, broadcastInDim ⟨2, ![524288, 1]⟩ ![0] hb1
          (select (cmpi .slt rows (broadcastInDim ⟨1, ![524288]⟩ ![] hb (constantI ⟨0, ![]⟩ 32 0#32)))
            (addi rows (broadcastInDim ⟨1, ![524288]⟩ ![] hb (constantI ⟨0, ![]⟩ 32 16384#32))) rows)⟩,
        ⟨⟨2, ![524288, 1]⟩, broadcastInDim ⟨2, ![524288, 1]⟩ ![0] hb1
          (select (cmpi .slt cols (broadcastInDim ⟨1, ![524288]⟩ ![] hb (constantI ⟨0, ![]⟩ 32 0#32)))
            (addi cols (broadcastInDim ⟨1, ![524288]⟩ ![] hb (constantI ⟨0, ![]⟩ 32 16384#32))) cols)⟩] hc
      (ix2 e (0 : Fin 2)) = rows (ix1 e) := by
  rw [wrap_eq hb rows hr, wrap_eq hb cols hcl, Cert.LibCells.concat_cols_apply0, column_apply]

/-- The second word of pair `e` is the column word of edge `e`. -/
theorem pairs_apply1 (hb : (⟨0, ![]⟩ : Shape).BroadcastsInDim ⟨1, ![524288]⟩ (![] : Fin 0 → Fin (⟨1, ![524288]⟩ : Shape).rank))
    (hb1 : (⟨1, ![524288]⟩ : Shape).BroadcastsInDim ⟨2, ![524288, 1]⟩ (![0] : Fin 1 → Fin (⟨2, ![524288, 1]⟩ : Shape).rank))
    (hc : Shape.Concatenates [(⟨2, ![524288, 1]⟩ : Shape), ⟨2, ![524288, 1]⟩] ⟨2, ![524288, 2]⟩ 1)
    (rows cols : IVec ⟨1, ![524288]⟩ 32) (hr : Cert.Spec.InRange rows) (hcl : Cert.Spec.InRange cols) (e : Fin 524288) :
    concatenate ⟨2, ![524288, 2]⟩ 1
      [⟨⟨2, ![524288, 1]⟩, broadcastInDim ⟨2, ![524288, 1]⟩ ![0] hb1
          (select (cmpi .slt rows (broadcastInDim ⟨1, ![524288]⟩ ![] hb (constantI ⟨0, ![]⟩ 32 0#32)))
            (addi rows (broadcastInDim ⟨1, ![524288]⟩ ![] hb (constantI ⟨0, ![]⟩ 32 16384#32))) rows)⟩,
        ⟨⟨2, ![524288, 1]⟩, broadcastInDim ⟨2, ![524288, 1]⟩ ![0] hb1
          (select (cmpi .slt cols (broadcastInDim ⟨1, ![524288]⟩ ![] hb (constantI ⟨0, ![]⟩ 32 0#32)))
            (addi cols (broadcastInDim ⟨1, ![524288]⟩ ![] hb (constantI ⟨0, ![]⟩ 32 16384#32))) cols)⟩] hc
      (ix2 e (1 : Fin 2)) = cols (ix1 e) := by
  rw [wrap_eq hb rows hr, wrap_eq hb cols hcl, Cert.LibCells.concat_cols_apply1, column_apply]

end Cert.IndexWords

end
-- ==== Proof.KMask.lean ====
/-
  The dense edge-count matrix the kernel's program builds before the region: zeros with every edge's weight added at
  the cell its row and column words name. For words in range, cell `(r, q)` holds zero plus the weights of the edges
  at that cell.
-/
import proofs.«414766_j26431228739590_1_alg».proof.Proof.Gen.KernelIdeal.Frame
import proofs.«414766_j26431228739590_1_alg».proof.Proof.Spec
import proofs.«414766_j26431228739590_1_alg».proof.Proof.LibCells
import proofs.«414766_j26431228739590_1_alg».proof.Proof.IndexWords
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ)

/-- The matrix the region finds, as a term of the argument arrays: zeros, with the edges' weights scattered at the pairs
    of wrapped words. -/
theorem mask_term (c : Dev nD) :
    (V m c main_v14 : FVec Ideal S16384x16384 .f32)
      = Host.scatterAdd (F := Ideal) scatter_S16384x16384_S524288x2_S524288_n_01_01_1
          (broadcastInDim S16384x16384 ![] bcast_S_S16384x16384 (constant (F := Ideal) S_ .f32 0x00000000#32))
          (concatenate S524288x2 1
            [⟨S524288x1, broadcastInDim S524288x1 ![0] bcast_S524288_S524288x1_0
                (select (cmpi .slt (m ((c.tc : Thread nD τ).loc main_arg2) : IVec S524288 32)
                    (broadcastInDim S524288 ![] bcast_S_S524288 (constantI S_ 32 0#32)))
                  (addi (m ((c.tc : Thread nD τ).loc main_arg2) : IVec S524288 32)
                    (broadcastInDim S524288 ![] bcast_S_S524288 (constantI S_ 32 16384#32)))
                  (m ((c.tc : Thread nD τ).loc main_arg2) : IVec S524288 32))⟩,
              ⟨S524288x1, broadcastInDim S524288x1 ![0] bcast_S524288_S524288x1_0
                (select (cmpi .slt (m ((c.tc : Thread nD τ).loc main_arg3) : IVec S524288 32)
                    (broadcastInDim S524288 ![] bcast_S_S524288 (constantI S_ 32 0#32)))
                  (addi (m ((c.tc : Thread nD τ).loc main_arg3) : IVec S524288 32)
                    (broadcastInDim S524288 ![] bcast_S_S524288 (constantI S_ 32 16384#32)))
                  (m ((c.tc : Thread nD τ).loc main_arg3) : IVec S524288 32))⟩]
            concatenates_S524288x1_S524288x1_S524288x2_d1)
          (m ((c.tc : Thread nD τ).loc main_arg1) : FVec Ideal S524288 .f32) := by
  dsimp only [Gen.V, Gen.V0]
  simp only [Gen.hostOps0, List.flatten_cons, List.flatten_nil, List.append_nil, List.cons_append, List.nil_append]
  after_results_simp <;> rfl

/-- The edge-count matrix the region finds, cell by cell, for index words in range. -/
theorem mask_apply (c : Dev nD)
    (h2 : Cert.Spec.InRange (m ((c.tc : Thread nD τ).loc main_arg2)))
    (h3 : Cert.Spec.InRange (m ((c.tc : Thread nD τ).loc main_arg3))) (r q : Fin 16384) :
    (V m c main_v14 : FVec Ideal S16384x16384 .f32) (ix2 r q)
      = Cert.Spec.cellSum (m ((c.tc : Thread nD τ).loc main_arg1)) (m ((c.tc : Thread nD τ).loc main_arg2))
          (m ((c.tc : Thread nD τ).loc main_arg3)) r q := by
  rw [mask_term m c, Cert.LibCells.scatterAdd2_apply _ rfl rfl rfl rfl]
  unfold Cert.Spec.cellSum
  -- the matrix starts at zero
  have hz : broadcastInDim S16384x16384 ![] bcast_S_S16384x16384 (constant (F := Ideal) S_ .f32 0x00000000#32) (ix2 r q)
      = Cert.Spec.zero := rfl
  rw [hz]
  -- an edge's weight lands on cell `(r, q)` exactly when its two words' positions are `r` and `q`: the pair array
  -- holds the edge's own two words
  refine congrArg (Cert.Spec.zero + ·) (Finset.sum_congr (Finset.filter_congr fun e _ => ?_) fun e _ => rfl)
  rw [Cert.IndexWords.pairs_apply0 _ _ _ _ _ h2 h3 e, Cert.IndexWords.pairs_apply1 _ _ _ _ _ h2 h3 e,
    Cert.Spec.pos_eq_iff (h2 e) r, Cert.Spec.pos_eq_iff (h3 e) q]

end Cert.KernelIdeal.Hand

end
-- ==== Proof.KValue.lean ====
/-
  The kernel program's second result, entry by entry: the flattened result column holds at row `r` the dense row sum
  of the matrix against the edge-count matrix, which for real entries and index words in range is row `r`'s segment
  sum of the argument arrays.
-/
import proofs.«414766_j26431228739590_1_alg».proof.Proof.Gen.KernelIdeal.Frame
import proofs.«414766_j26431228739590_1_alg».proof.Proof.Spec
import proofs.«414766_j26431228739590_1_alg».proof.Proof.KRun
import proofs.«414766_j26431228739590_1_alg».proof.Proof.KFinal
import proofs.«414766_j26431228739590_1_alg».proof.Proof.KMask
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ)

/-- A column of `a` rows flattened to a vector reads, at `i`, the column's row `i`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Row `r` of the kernel program's second result is row `r`'s segment sum of the arguments. -/
theorem outVec_apply (c : Dev nD)
    (hd : Cert.Spec.AllReal (m ((c.tc : Thread nD τ).loc main_arg0)))
    (ha : Cert.Spec.AllReal (m ((c.tc : Thread nD τ).loc main_arg1)))
    (h2 : Cert.Spec.InRange (m ((c.tc : Thread nD τ).loc main_arg2)))
    (h3 : Cert.Spec.InRange (m ((c.tc : Thread nD τ).loc main_arg3))) (r : Fin 16384) :
    outVec (F := Ideal) m c (ix1 r)
      = Cert.Spec.segSum (m ((c.tc : Thread nD τ).loc main_arg0)) (m ((c.tc : Thread nD τ).loc main_arg1))
          (m ((c.tc : Thread nD τ).loc main_arg2)) (m ((c.tc : Thread nD τ).loc main_arg3)) r := by
  unfold outVec
  refine (shapeCast_a1_a_apply _ _ r).trans ?_
  refine (final m c r).trans ?_
  have hV : (V m c main_arg0 : Cert.Spec.SD.Idx → EReal) = m ((c.tc : Thread nD τ).loc main_arg0) := V_main_arg0 m c
  rw [hV]
  exact Cert.Spec.rowSum_cellSum _ _ _ _ hd ha _ (fun r' q => mask_apply m c h2 h3 r' q) r

end Cert.KernelIdeal.Hand

end
-- ==== Proof.RefValue.lean ====
/-
  What the reference computes, read at an index: each edge's weight times the matrix entry at the edge's cell, summed
  into the edge's row. For index words in range, row `r` holds zero plus the sum over the edges of row `r` — the
  segment sum.
-/
import proofs.«414766_j26431228739590_1_alg».proof.Proof.Gen.ReferenceIdeal.Run
import proofs.«414766_j26431228739590_1_alg».proof.Proof.Gen.ReferenceIdeal.Read
import proofs.«414766_j26431228739590_1_alg».proof.Proof.Spec
import proofs.«414766_j26431228739590_1_alg».proof.Proof.LibCells
import proofs.«414766_j26431228739590_1_alg».proof.Proof.IndexWords
import Idealize.ShloMosaic.Lib.ValueIdx
import Idealize.ShloMosaic.Lib.Pipeline.Value

noncomputable section

namespace Cert.ReferenceIdeal.Hand

open Cert.ReferenceIdeal Cert.ReferenceIdeal.Gen Idealize.ShloMosaic Idealize.ShloMosaic.TcCoe Idealize.ShloMosaic.ValueIdx Idealize.SL.Sem
open scoped BigOperators

/-- The reference's segment sums, row by row, for index words in range. -/
theorem v17_apply (x0 : FVec Ideal S16384x16384 .f32) (x1 : FVec Ideal S524288 .f32) (x2 x3 : IVec S524288 32)
    (h2 : Cert.Spec.InRange x2) (h3 : Cert.Spec.InRange x3) (r : Fin 16384) :
    Cert.ReferenceIdeal.Read.val_main_v17 (F := Ideal) x0 x1 x2 x3 (ix1 r) = Cert.Spec.segSum x0 x1 x2 x3 r := by
  unfold Cert.ReferenceIdeal.Read.val_main_v17 Cert.Spec.segSum
  rw [Cert.LibCells.scatterAdd1_apply _ rfl rfl rfl rfl]
  -- the table starts at zero
  have hz : Cert.ReferenceIdeal.Read.val_main_v15 (F := Ideal) (ix1 r) = Cert.Spec.zero := by
    rw [Cert.ReferenceIdeal.Read.val_main_v15_apply]
    rfl
  -- the index column holds the row words themselves
  have hcol : ∀ e : Fin 524288,
      Cert.ReferenceIdeal.Read.val_main_v16 (F := Ideal) x2 (ix2 e (0 : Fin 1)) = x2 (ix1 e) := fun e =>
    Cert.IndexWords.column_apply _ x2 e
  -- so an edge's update lands on row `r` exactly when its row word's position is `r`
  have hfil : (Finset.univ.filter fun e : Fin 524288 =>
        (Cert.ReferenceIdeal.Read.val_main_v16 (F := Ideal) x2 (ix2 e (0 : Fin 1))).toInt = (r.val : ℤ))
      = Finset.univ.filter fun e : Fin 524288 => Cert.Spec.pos (x2 (ix1 e)) = r :=
    Finset.filter_congr fun e _ => by rw [hcol e]; exact (Cert.Spec.pos_eq_iff (h2 e) r).symm
  -- the pair array holds the edge's own two words
  have hp0 : ∀ e : Fin 524288,
      Cert.ReferenceIdeal.Read.val_main_v12 (F := Ideal) x2 x3 (ix2 e (0 : Fin 2)) = x2 (ix1 e) := fun e =>
    Cert.IndexWords.pairs_apply0 _ _ _ x2 x3 h2 h3 e
  have hp1 : ∀ e : Fin 524288,
      Cert.ReferenceIdeal.Read.val_main_v12 (F := Ideal) x2 x3 (ix2 e (1 : Fin 2)) = x3 (ix1 e) := fun e =>
    Cert.IndexWords.pairs_apply1 _ _ _ x2 x3 h2 h3 e
  -- an edge's update is its weight times the matrix entry its two words name
  have hupd : ∀ e : Fin 524288, Cert.ReferenceIdeal.Read.val_main_v14 (F := Ideal) x0 x1 x2 x3 (ix1 e)
      = x1 (ix1 e) * x0 (ix2 (Cert.Spec.pos (x2 (ix1 e))) (Cert.Spec.pos (x3 (ix1 e)))) := by
    intro e
    rw [Cert.ReferenceIdeal.Read.val_main_v14_apply]
    show x1 (ix1 e) * Cert.ReferenceIdeal.Read.val_main_v13 (F := Ideal) x0 x2 x3 (ix1 e) = _
    unfold Cert.ReferenceIdeal.Read.val_main_v13
    rw [Cert.LibCells.gather2_apply _ rfl rfl rfl rfl rfl x0 _ e (by decide) (by decide)]
    simp only [hp0 e, hp1 e]
    rfl
  rw [hz, hfil]
  exact congrArg (Cert.Spec.zero + ·) (Finset.sum_congr rfl fun e _ => hupd e)

end Cert.ReferenceIdeal.Hand

end
-- ==== Proof.lean ====
/-
  A dense masked row sum against a sparse segment sum, each followed by the same softmax.

  The arguments are a matrix `data` of 16384 rows and columns and 524288 edges, each an edge weight `adj e`, a row word
  `rows e` and a column word `cols e`. The reference multiplies each edge's weight with the matrix entry at the edge's
  cell and adds the products up per row (a segment sum); the kernel program first builds the dense matrix of edge
  weights per cell (a scatter-add into zeros), then a kernel sums, row by row, the entrywise product of the two dense
  matrices, 2048 columns at a time into an accumulator column. Both apply the softmax to the 16384 row values and
  return the softmax and the row values.

  Over the extended reals the two row values agree when the float arguments are real numbers — the product
  distributes over each cell's sum and the two sums exchange (Proof/SumLaw.lean, Proof/Spec.lean) — and the index
  words are positions of the matrix, which is where the reference itself indexes in range: for a negative row word the
  reference's gather wraps it and its segment sum drops it, while the kernel program's scatter wraps it and keeps it.
  The precondition states both (Proof/PreDecode.lean reads it). The kernel's side: the body's accumulation across the
  grid (Proof/KPieces.lean, KPayload.lean, KBlocks.lean, KAccum.lean), the result column (Proof/KFinal.lean), the
  edge-count matrix (Proof/KMask.lean), the host lines after the region (Proof/KRun.lean, KValue.lean); the
  reference's side: Proof/RefValue.lean. The softmax is carried as one function of its argument (Proof/Tail.lean).
-/
import proofs.«414766_j26431228739590_1_alg».proof.Defs
import proofs.«414766_j26431228739590_1_alg».proof.Proof.Gen.Kernel
import proofs.«414766_j26431228739590_1_alg».proof.Proof.Gen.Kernel.Skeleton
import proofs.«414766_j26431228739590_1_alg».proof.Proof.Gen.Kernel.Launch
import proofs.«414766_j26431228739590_1_alg».proof.Proof.Gen.Kernel.Points
import proofs.«414766_j26431228739590_1_alg».proof.Proof.Gen.Kernel.Frame
import proofs.«414766_j26431228739590_1_alg».proof.Proof.Gen.KernelIdeal
import proofs.«414766_j26431228739590_1_alg».proof.Proof.Gen.KernelIdeal.Skeleton
import proofs.«414766_j26431228739590_1_alg».proof.Proof.Gen.KernelIdeal.Launch
import proofs.«414766_j26431228739590_1_alg».proof.Proof.Gen.KernelIdeal.Points
import proofs.«414766_j26431228739590_1_alg».proof.Proof.Gen.KernelIdeal.Frame
import proofs.«414766_j26431228739590_1_alg».proof.Proof.Gen.ReferenceIdeal
import proofs.«414766_j26431228739590_1_alg».proof.Proof.Gen.ReferenceIdeal.Run
import proofs.«414766_j26431228739590_1_alg».proof.Proof.Gen.ReferenceIdeal.Read
import proofs.«414766_j26431228739590_1_alg».proof.Proof.Gen.Pre_finite_inputs
import proofs.«414766_j26431228739590_1_alg».proof.Proof.Spec
import proofs.«414766_j26431228739590_1_alg».proof.Proof.Tail
import proofs.«414766_j26431228739590_1_alg».proof.Proof.PreDecode
import proofs.«414766_j26431228739590_1_alg».proof.Proof.KRun
import proofs.«414766_j26431228739590_1_alg».proof.Proof.KValue
import proofs.«414766_j26431228739590_1_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The row values both programs return: the segment sums of the argument arrays. -/
def seg (x0 : Cert.Spec.SD.Idx → EReal) (x1 : Cert.Spec.SE.Idx → EReal) (x2 x3 : IVec Cert.Spec.SE 32) :
    FVec Ideal Cert.Tail.SR .f32 :=
  fun i => Cert.Spec.segSum x0 x1 x2 x3 (i 0)

/-- The reference's first result is the softmax of its second. -/
theorem ref_softmax (x0 : FVec Ideal Cert.ReferenceIdeal.S16384x16384 .f32) (x1 : FVec Ideal Cert.ReferenceIdeal.S524288 .f32)
    (x2 x3 : IVec Cert.ReferenceIdeal.S524288 32) :
    (Cert.ReferenceIdeal.Read.val_main_v27 (F := Ideal) x0 x1 x2 x3 : FVec Ideal Cert.Tail.SR .f32)
      = Cert.Tail.softmax (F := Ideal) Cert.ReferenceIdeal.Gen.reducesTo_S16384_S_d0 Cert.ReferenceIdeal.Gen.h_S_
          Cert.ReferenceIdeal.Gen.bcast_S_S1 Cert.ReferenceIdeal.Gen.bcast_S1_S16384_0
          (Cert.ReferenceIdeal.Read.val_main_v17 (F := Ideal) x0 x1 x2 x3 : FVec Ideal Cert.Tail.SR .f32) := rfl

/-- The reference's second result is the segment sums, for index words in range. -/
theorem ref_seg (x0 : FVec Ideal Cert.ReferenceIdeal.S16384x16384 .f32) (x1 : FVec Ideal Cert.ReferenceIdeal.S524288 .f32)
    (x2 x3 : IVec Cert.ReferenceIdeal.S524288 32) (h2 : Cert.Spec.InRange x2) (h3 : Cert.Spec.InRange x3) :
    Cert.ReferenceIdeal.Read.val_main_v17 (F := Ideal) x0 x1 x2 x3 = seg x0 x1 x2 x3 := by
  funext i
  obtain ⟨r, rfl⟩ : ∃ r : Fin 16384, i = ix1 r := ⟨i 0, eq_ix1 i⟩
  exact Cert.ReferenceIdeal.Hand.v17_apply x0 x1 x2 x3 h2 h3 r

/-- The kernel program's second result is the segment sums, for real entries and index words in range. -/
theorem ker_seg (m : (ℓ : Loc Cert.KernelIdeal.nD Cert.KernelIdeal.τ Cert.KernelIdeal.sig) → Buf (Elt Ideal) ℓ)
    (c : Dev Cert.KernelIdeal.nD)
    (hd : Cert.Spec.AllReal (m ((c.tc : Thread Cert.KernelIdeal.nD Cert.KernelIdeal.τ).loc Cert.KernelIdeal.main_arg0)))
    (ha : Cert.Spec.AllReal (m ((c.tc : Thread Cert.KernelIdeal.nD Cert.KernelIdeal.τ).loc Cert.KernelIdeal.main_arg1)))
    (h2 : Cert.Spec.InRange (m ((c.tc : Thread Cert.KernelIdeal.nD Cert.KernelIdeal.τ).loc Cert.KernelIdeal.main_arg2)))
    (h3 : Cert.Spec.InRange (m ((c.tc : Thread Cert.KernelIdeal.nD Cert.KernelIdeal.τ).loc Cert.KernelIdeal.main_arg3))) :
    Cert.KernelIdeal.Hand.outVec (F := Ideal) m c
      = seg (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  funext i
  obtain ⟨r, rfl⟩ : ∃ r : Fin 16384, i = ix1 r := ⟨i 0, eq_ix1 i⟩
  exact Cert.KernelIdeal.Hand.outVec_apply m c hd ha h2 h3 r

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2)
    (Cert.ReferenceIdeal.Value.run (F := Ideal) m ρ)

/-- Both programs end with the softmax of the segment sums and the segment sums themselves. -/
theorem algebraic : Cert.algebraic_KernelIdeal_ReferenceIdeal := by
  intro m ρ m' ρ' hpre hagree
  have hdec := fun c => Cert.PreDecode.decode _ _ _ _ (hpre c)
  refine ⟨fun c => Cert.Tail.softmax Cert.KernelIdeal.Gen.reducesTo_S16384_S_d0 Cert.KernelIdeal.Gen.h_S_
      Cert.KernelIdeal.Gen.bcast_S_S1 Cert.KernelIdeal.Gen.bcast_S1_S16384_0
      (seg (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))),
    fun c => seg (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)), ?_, ?_⟩
  · refine (θ_run Cert.KernelIdeal.defs _ _).mono (fun _ h c => ?_) (Cert.KernelIdeal.Hand.run (F := Ideal) m ρ)
    obtain ⟨hd, ha, h2, h3⟩ := hdec c
    have hs := ker_seg m c hd ha h2 h3
    refine ⟨(h c).1.trans ?_, (h c).2.1.trans hs, (h c).2.2⟩
    rw [hs]
  · refine (θ_run Cert.ReferenceIdeal.defs _ _).mono (fun _ h c => ?_)
      (Cert.ReferenceIdeal.Value.run (F := Ideal) m' ρ')
    obtain ⟨hd, ha, h2, h3⟩ := hdec c
    obtain ⟨e0, e1, e2, e3⟩ := hagree c
    have hs := ref_seg (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (by rw [e2]; exact h2) (by rw [e3]; exact h3)
    refine ⟨(h c).1.trans ?_, (h c).2.1.trans ?_, (h c).2.2⟩
    · rw [Cert.ReferenceIdeal.Read.val_main_v27_eq, ref_softmax, hs, e0, e1, e2, e3]
    · rw [Cert.ReferenceIdeal.Read.val_main_v17_eq, hs, e0, e1, e2, e3]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
